-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x1 : Shape := ⟨2, ![8192, 1]⟩
abbrev S512x512 : Shape := ⟨2, ![512, 512]⟩
abbrev S512 : Shape := ⟨1, ![512]⟩
abbrev S512x1 : Shape := ⟨2, ![512, 1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1 : S_.BroadcastsInDim S8192x1 (![] : Fin 0 → Fin S8192x1.rank)
  reducesTo_S8192x1_S_d0_1 : S8192x1.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_

variable [Facts]

def fn_part7 {F : FTy → Type} [FloatOps F] (main_arg25 : FVec F S512x1 .f32) (main_v118 : IVec S_ 1) (main_v119 : FVec F S512 .f32) : IVec S_ 1 :=
  let main_cst_46 : FVec F S_ .f32 := constant S_ .f32 0x7F800000#32
  let main_v120 : FVec F S512 .f32 := broadcastInDim S512 ![] bcast_S_S512 main_cst_46
  let main_v121 : IVec S512 1 := cmpf .olt main_v119 main_v120
  let main_c_47 : IVec S_ 1 := constantI S_ 1 1#1
  let main_v122 : IVec S_ 1 := (fun x v => Host.reduce IntOp.andi x v reducesTo_S512_S_d0 h_S_) main_v121 main_c_47
  let main_v123 : IVec S_ 1 := andi main_v118 main_v122
  let main_v124 : FVec F S512x1 .f32 := Host.absf main_arg25
  let main_cst_48 : FVec F S_ .f32 := constant S_ .f32 0x7F800000#32
  let main_v125 : FVec F S512x1 .f32 := broadcastInDim S512x1 ![] bcast_S_S512x1 main_cst_48
  let main_v126 : IVec S512x1 1 := cmpf .olt main_v124 main_v125
  let main_c_49 : IVec S_ 1 := constantI S_ 1 1#1
  let main_v127 : IVec S_ 1 := (fun x v => Host.reduce IntOp.andi x v reducesTo_S512x1_S_d0_1 h_S_) main_v126 main_c_49
  let main_v128 : IVec S_ 1 := andi main_v123 main_v127
  main_v128

def fn_part6 {F : FTy → Type} [FloatOps F] (main_arg21 : FVec F S512 .f32) (main_arg22 : FVec F S512x1 .f32) (main_arg23 : FVec F S512x512 .f32) (main_arg24 : FVec F S512 .f32) (main_arg25 : FVec F S512x1 .f32) (main_v98 : IVec S_ 1) (main_v101 : IVec S512x512 1) (main_c_39 : IVec S_ 1) : IVec S_ 1 :=
  let main_v102 : IVec S_ 1 := (fun x v => Host.reduce IntOp.andi x v reducesTo_S512x512_S_d0_1 h_S_) main_v101 main_c_39
  let main_v103 : IVec S_ 1 := andi main_v98 main_v102
  let main_v104 : FVec F S512 .f32 := Host.absf main_arg21
  let main_cst_40 : FVec F S_ .f32 := constant S_ .f32 0x7F800000#32
  let main_v105 : FVec F S512 .f32 := broadcastInDim S512 ![] bcast_S_S512 main_cst_40
  let main_v106 : IVec S512 1 := cmpf .olt main_v104 main_v105
  let main_c_41 : IVec S_ 1 := constantI S_ 1 1#1
  let main_v107 : IVec S_ 1 := (fun x v => Host.reduce IntOp.andi x v reducesTo_S512_S_d0 h_S_) main_v106 main_c_41
  let main_v108 : IVec S_ 1 := andi main_v103 main_v107
  let main_v109 : FVec F S512x1 .f32 := Host.absf main_arg22
  let main_cst_42 : FVec F S_ .f32 := constant S_ .f32 0x7F800000#32
  let main_v110 : FVec F S512x1 .f32 := broadcastInDim S512x1 ![] bcast_S_S512x1 main_cst_42
  let main_v111 : IVec S512x1 1 := cmpf .olt main_v109 main_v110
  let main_c_43 : IVec S_ 1 := constantI S_ 1 1#1
  let main_v112 : IVec S_ 1 := (fun x v => Host.reduce IntOp.andi x v reducesTo_S512x1_S_d0_1 h_S_) main_v111 main_c_43
  let main_v113 : IVec S_ 1 := andi main_v108 main_v112
  let main_v114 : FVec F S512x512 .f32 := Host.absf main_arg23
  let main_cst_44 : FVec F S_ .f32 := constant S_ .f32 0x7F800000#32
  let main_v115 : FVec F S512x512 .f32 := broadcastInDim S512x512 ![] bcast_S_S512x512 main_cst_44
  let main_v116 : IVec S512x512 1 := cmpf .olt main_v114 main_v115
  let main_c_45 : IVec S_ 1 := constantI S_ 1 1#1
  let main_v117 : IVec S_ 1 := (fun x v => Host.reduce IntOp.andi x v reducesTo_S512x512_S_d0_1 h_S_) main_v116 main_c_45
  let main_v118 : IVec S_ 1 := andi main_v113 main_v117
  let main_v119 : FVec F S512 .f32 := Host.absf main_arg24
  fn_part7 (F := F) main_arg25 main_v118 main_v119

def fn_part5 {F : FTy → Type} [FloatOps F] (main_arg18 : FVec F S512x512 .f32) (main_arg19 : FVec F S512 .f32) (main_arg20 : FVec F S512x512 .f32) (main_arg21 : FVec F S512 .f32) (main_arg22 : FVec F S512x1 .f32) (main_arg23 : FVec F S512x512 .f32) (main_arg24 : FVec F S512 .f32) (main_arg25 : FVec F S512x1 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512x512 .f32 := Host.absf main_arg18
  let main_cst_34 : FVec F S_ .f32 := constant S_ .f32 0x7F800000#32
  let main_v90 : FVec F S512x512 .f32 := broadcastInDim S512x512 ![] bcast_S_S512x512 main_cst_34
  let main_v91 : IVec S512x512 1 := cmpf .olt main_v89 main_v90
  let main_c_35 : IVec S_ 1 := constantI S_ 1 1#1
  let main_v92 : IVec S_ 1 := (fun x v => Host.reduce IntOp.andi x v reducesTo_S512x512_S_d0_1 h_S_) main_v91 main_c_35
  let main_v93 : IVec S_ 1 := andi main_v88 main_v92
  let main_v94 : FVec F S512 .f32 := Host.absf main_arg19
  let main_cst_36 : FVec F S_ .f32 := constant S_ .f32 0x7F800000#32
  let main_v95 : FVec F S512 .f32 := broadcastInDim S512 ![] bcast_S_S512 main_cst_36
  let main_v96 : IVec S512 1 := cmpf .olt main_v94 main_v95
  let main_c_37 : IVec S_ 1 := constantI S_ 1 1#1
  let main_v97 : IVec S_ 1 := (fun x v => Host.reduce IntOp.andi x v reducesTo_S512_S_d0 h_S_) main_v96 main_c_37
  let main_v98 : IVec S_ 1 := andi main_v93 main_v97
  let main_v99 : FVec F S512x512 .f32 := Host.absf main_arg20
  let main_cst_38 : FVec F S_ .f32 := constant S_ .f32 0x7F800000#32
  let main_v100 : FVec F S512x512 .f32 := broadcastInDim S512x512 ![] bcast_S_S512x512 main_cst_38
  let main_v101 : IVec S512x512 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S512x512 .f32) (main_arg15 : FVec F S512 .f32) (main_arg16 : FVec F S512x1 .f32) (main_arg17 : FVec F S512 .f32) (main_arg18 : FVec F S512x512 .f32) (main_arg19 : FVec F S512 .f32) (main_arg20 : FVec F S512x512 .f32) (main_arg21 : FVec F S512 .f32) (main_arg22 : FVec F S512x1 .f32) (main_arg23 : FVec F S512x512 .f32) (main_arg24 : FVec F S512 .f32) (main_arg25 : FVec F S512x1 .f32) (main_v63 : IVec S_ 1) (main_v67 : IVec S_ 1) : IVec S_ 1 :=
  let main_v68 : IVec S_ 1 := andi main_v63 main_v67
  let main_v69 : FVec F S512x512 .f32 := Host.absf main_arg14
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512x1 .f32 := Host.absf main_arg16
  let main_cst_30 : FVec F S_ .f32 := constant S_ .f32 0x7F800000#32
  let main_v80 : FVec F S512x1 .f32 := broadcastInDim S512x1 ![] bcast_S_S512x1 main_cst_30
  let main_v81 : IVec S512x1 1 := cmpf .olt main_v79 main_v80
  let main_c_31 : IVec S_ 1 := constantI S_ 1 1#1
  let main_v82 : IVec S_ 1 := (fun x v => Host.reduce IntOp.andi x v reducesTo_S512x1_S_d0_1 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S512 .f32) (main_arg12 : FVec F S512x512 .f32) (main_arg13 : FVec F S512 .f32) (main_arg14 : FVec F S512x512 .f32) (main_arg15 : FVec F S512 .f32) (main_arg16 : FVec F S512x1 .f32) (main_arg17 : FVec F S512 .f32) (main_arg18 : FVec F S512x512 .f32) (main_arg19 : FVec F S512 .f32) (main_arg20 : FVec F S512x512 .f32) (main_arg21 : FVec F S512 .f32) (main_arg22 : FVec F S512x1 .f32) (main_arg23 : FVec F S512x512 .f32) (main_arg24 : FVec F S512 .f32) (main_arg25 : FVec F S512x1 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_arg14 : FVec F S512x512 .f32) (main_arg15 : FVec F S512 .f32) (main_arg16 : FVec F S512x1 .f32) (main_arg17 : FVec F S512 .f32) (main_arg18 : FVec F S512x512 .f32) (main_arg19 : FVec F S512 .f32) (main_arg20 : FVec F S512x512 .f32) (main_arg21 : FVec F S512 .f32) (main_arg22 : FVec F S512x1 .f32) (main_arg23 : FVec F S512x512 .f32) (main_arg24 : FVec F S512 .f32) (main_arg25 : FVec F S512x1 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_arg14 : FVec F S512x512 .f32) (main_arg15 : FVec F S512 .f32) (main_arg16 : FVec F S512x1 .f32) (main_arg17 : FVec F S512 .f32) (main_arg18 : FVec F S512x512 .f32) (main_arg19 : FVec F S512 .f32) (main_arg20 : FVec F S512x512 .f32) (main_arg21 : FVec F S512 .f32) (main_arg22 : FVec F S512x1 .f32) (main_arg23 : FVec F S512x512 .f32) (main_arg24 : FVec F S512 .f32) (main_arg25 : FVec F S512x1 .f32) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S8192x512 .f32) (main_arg1 : FVec F S8192x1 .f32) (main_arg2 : FVec F S8192x512 .f32) (main_arg3 : FVec F S8192x512 .f32) (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_arg14 : FVec F S512x512 .f32) (main_arg15 : FVec F S512 .f32) (main_arg16 : FVec F S512x1 .f32) (main_arg17 : FVec F S512 .f32) (main_arg18 : FVec F S512x512 .f32) (main_arg19 : FVec F S512 .f32) (main_arg20 : FVec F S512x512 .f32) (main_arg21 : FVec F S512 .f32) (main_arg22 : FVec F S512x1 .f32) (main_arg23 : FVec F S512x512 .f32) (main_arg24 : FVec F S512 .f32) (main_arg25 : FVec F S512x1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x1 .f32 := Host.absf main_arg1
  let main_cst_0 : FVec F S_ .f32 := constant S_ .f32 0x7F800000#32
  let main_v5 : FVec F S8192x1 .f32 := broadcastInDim S8192x1 ![] bcast_S_S8192x1 main_cst_0
  let main_v6 : IVec S8192x1 1 := cmpf .olt main_v4 main_v5
  let main_c_1 : IVec S_ 1 := constantI S_ 1 1#1
  let main_v7 : IVec S_ 1 := (fun x v => Host.reduce IntOp.andi x v reducesTo_S8192x1_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S8192x512 : Shape := ⟨2, ![8192, 512]⟩
abbrev S8192x1 : Shape := ⟨2, ![8192, 1]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 40
  | .vmem => 34
  | .smem => 0
  | _ => 0

abbrev bufTy : (tb : Table) → Fin (tcTables nBuf tb) → BufTy
  | .hbm, ⟨0, _⟩ => ⟨S8192x512, .f32⟩
  | .hbm, ⟨1, _⟩ => ⟨S8192x1, .f32⟩
  | .hbm, ⟨2, _⟩ => ⟨S8192x512, .f32⟩
  | .hbm, ⟨3, _⟩ => ⟨S8192x512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S512x512, .f32⟩
  | .hbm, ⟨15, _⟩ => ⟨S512, .f32⟩
  | .hbm, ⟨16, _⟩ => ⟨S512x1, .f32⟩
  | .hbm, ⟨17, _⟩ => ⟨S512, .f32⟩
  | .hbm, ⟨18, _⟩ => ⟨S512x512, .f32⟩
  | .hbm, ⟨19, _⟩ => ⟨S512, .f32⟩
  | .hbm, ⟨20, _⟩ => ⟨S512x512, .f32⟩
  | .hbm, ⟨21, _⟩ => ⟨S512, .f32⟩
  | .hbm, ⟨22, _⟩ => ⟨S512x1, .f32⟩
  | .hbm, ⟨23, _⟩ => ⟨S512x512, .f32⟩
  | .hbm, ⟨24, _⟩ => ⟨S512, .f32⟩
  | .hbm, ⟨25, _⟩ => ⟨S512x1, .f32⟩
  | .hbm, ⟨26, _⟩ => ⟨S512x512, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S512x512, .f32⟩
  | .hbm, ⟨31, _⟩ => ⟨S512x512, .f32⟩
  | .hbm, ⟨32, _⟩ => ⟨S1x512, .f32⟩
  | .hbm, ⟨33, _⟩ => ⟨S512x512, .f32⟩
  | .hbm, ⟨34, _⟩ => ⟨S512x512, .f32⟩
  | .hbm, ⟨35, _⟩ => ⟨S1x512, .f32⟩
  | .hbm, ⟨36, _⟩ => ⟨S512x512, .f32⟩
  | .hbm, ⟨37, _⟩ => ⟨S1x512, .f32⟩
  | .hbm, ⟨38, _⟩ => ⟨S8192x512, .f32⟩
  | .hbm, ⟨39, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x1, .f32⟩
  | .local _ .vmem, ⟨3, _⟩ => ⟨S512x1, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512, .f32⟩
  | .local _ .vmem, ⟨10, _⟩ => ⟨S512x512, .f32⟩
  | .local _ .vmem, ⟨11, _⟩ => ⟨S512, .f32⟩
  | .local _ .vmem, ⟨12, _⟩ => ⟨S512x512, .f32⟩
  | .local _ .vmem, ⟨13, _⟩ => ⟨S512, .f32⟩
  | .local _ .vmem, ⟨14, _⟩ => ⟨S512x512, .f32⟩
  | .local _ .vmem, ⟨15, _⟩ => ⟨S512, .f32⟩
  | .local _ .vmem, ⟨16, _⟩ => ⟨S512x512, .f32⟩
  | .local _ .vmem, ⟨17, _⟩ => ⟨S512, .f32⟩
  | .local _ .vmem, ⟨18, _⟩ => ⟨S512x512, .f32⟩
  | .local _ .vmem, ⟨19, _⟩ => ⟨S512, .f32⟩
  | .local _ .vmem, ⟨20, _⟩ => ⟨S1x512, .f32⟩
  | .local _ .vmem, ⟨21, _⟩ => ⟨S512, .f32⟩
  | .local _ .vmem, ⟨22, _⟩ => ⟨S512x512, .f32⟩
  | .local _ .vmem, ⟨23, _⟩ => ⟨S512, .f32⟩
  | .local _ .vmem, ⟨24, _⟩ => ⟨S512x512, .f32⟩
  | .local _ .vmem, ⟨25, _⟩ => ⟨S512, .f32⟩
  | .local _ .vmem, ⟨26, _⟩ => ⟨S1x512, .f32⟩
  | .local _ .vmem, ⟨27, _⟩ => ⟨S512x512, .f32⟩
  | .local _ .vmem, ⟨28, _⟩ => ⟨S512, .f32⟩
  | .local _ .vmem, ⟨29, _⟩ => ⟨S1x512, .f32⟩
  | .local _ .vmem, ⟨30, _⟩ => ⟨S512x512, .f32⟩
  | .local _ .vmem, ⟨31, _⟩ => ⟨S512x512, .f32⟩
  | .local _ .vmem, ⟨32, _⟩ => ⟨S512x512, .f32⟩
  | .local _ .vmem, ⟨33, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12_0 : Ref sig .tc := ⟨.hbm, 38, rfl⟩
abbrev main_v12_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg23_0 : Ref sig .tc := ⟨.vmem, 27, rfl⟩
abbrev cc0_stg24_0 : Ref sig .tc := ⟨.vmem, 28, rfl⟩
abbrev cc0_stg25_0 : Ref sig .tc := ⟨.vmem, 29, rfl⟩
abbrev cc0_stg26_0 : Ref sig .tc := ⟨.vmem, 30, rfl⟩
abbrev cc0_stg26_1 : Ref sig .tc := ⟨.vmem, 31, rfl⟩
abbrev cc0_stg27_0 : Ref sig .tc := ⟨.vmem, 32, rfl⟩
abbrev cc0_stg27_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem23_0 : DmaSem sig := 27
abbrev cc0_sem24_0 : DmaSem sig := 28
abbrev cc0_sem25_0 : DmaSem sig := 29
abbrev cc0_sem26_0 : DmaSem sig := 30
abbrev cc0_sem26_1 : DmaSem sig := 31
abbrev cc0_sem27_0 : DmaSem sig := 32
abbrev cc0_sem27_1 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S512x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S512x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S512x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

class Facts₀ : Prop where
  transposes_S512x512_S512x512_1_0 : S512x512.Transposes [1, 0] S512x512
  transposes_S512x1_S1x512_1_0 : S512x1.Transposes [1, 0] S1x512
  inb_S512x512_S512x512_0_0 : ∀ a, (![0, 0] : Fin 2 → Nat) a + S512x512.size a ≤ S512x512.size a
  h_S512x512 : 0 < S512x512.numel
  inb_S512x1_S512x1_0_0 : ∀ a, (![0, 0] : Fin 2 → Nat) a + S512x1.size a ≤ S512x1.size a
  h_S512x1 : 0 < S512x1.numel
  bitsLt_bf16_f32 : FTy.bits .bf16 < FTy.bits .f32
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x512.size a
  hwx0_2 : ∀ i : grid0.Coords, EltTy.bits .f32 = 32 ∨ (Rect.block (s := S8192x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S8192x512.size a
  hwx0_3 : ∀ i : grid0.Coords, EltTy.bits .f32 = 32 ∨ (Rect.block (s := S8192x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .f32 = 32 ∨ (Rect.block (s := S512x512) S512x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .f32 = 32 ∨ (Rect.block (s := S512x512) S512x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S512x512.size a
  hwx0_12 : ∀ i : grid0.Coords, EltTy.bits .f32 = 32 ∨ (Rect.block (s := S512x512) S512x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512.size a ≤ S512.size a
  hwx0_13 : ∀ i : grid0.Coords, EltTy.bits .f32 = 32 ∨ (Rect.block (s := S512) S512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x512.size a ≤ S512x512.size a
  hwx0_14 : ∀ i : grid0.Coords, EltTy.bits .f32 = 32 ∨ (Rect.block (s := S512x512) S512x512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512.size a ≤ S512.size a
  hwx0_15 : ∀ i : grid0.Coords, EltTy.bits .f32 = 32 ∨ (Rect.block (s := S512) S512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x512.size a ≤ S1x512.size a
  hwx0_16 : ∀ i : grid0.Coords, EltTy.bits .f32 = 32 ∨ (Rect.block (s := S1x512) S1x512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512.size a ≤ S512.size a
  hwx0_17 : ∀ i : grid0.Coords, EltTy.bits .f32 = 32 ∨ (Rect.block (s := S512) S512.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S512x512.size a ≤ S512x512.size a
  hwx0_18 : ∀ i : grid0.Coords, EltTy.bits .f32 = 32 ∨ (Rect.block (s := S512x512) S512x512.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S512.size a ≤ S512.size a
  hwx0_19 : ∀ i : grid0.Coords, EltTy.bits .f32 = 32 ∨ (Rect.block (s := S512) S512.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S512x512.size a ≤ S512x512.size a
  hwx0_20 : ∀ i : grid0.Coords, EltTy.bits .f32 = 32 ∨ (Rect.block (s := S512x512) S512x512.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S512.size a ≤ S512.size a
  hwx0_21 : ∀ i : grid0.Coords, EltTy.bits .f32 = 32 ∨ (Rect.block (s := S512) S512.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x512.size a ≤ S1x512.size a
  hwx0_22 : ∀ i : grid0.Coords, EltTy.bits .f32 = 32 ∨ (Rect.block (s := S1x512) S1x512.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S512x512.size a ≤ S512x512.size a
  hwx0_23 : ∀ i : grid0.Coords, EltTy.bits .f32 = 32 ∨ (Rect.block (s := S512x512) S512x512.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S512.size a ≤ S512.size a
  hwx0_24 : ∀ i : grid0.Coords, EltTy.bits .f32 = 32 ∨ (Rect.block (s := S512) S512.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S1x512.size a ≤ S1x512.size a
  hwx0_25 : ∀ i : grid0.Coords, EltTy.bits .f32 = 32 ∨ (Rect.block (s := S1x512) S1x512.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S512x512.size a ≤ S8192x512.size a
  hwx0_26 : ∀ i : grid0.Coords, EltTy.bits .f32 = 32 ∨ (Rect.block (s := S8192x512) S512x512.size (cc0_transform_26 i) (hinb0_26 i)).WholeWords (EltTy.packing .f32)
  hstage0_27 : ∀ j, (stage0_27 j).IsWhole
  nbuf0_27 : grid0.bufCount reads0_27 false = 2
  hreads0_27 : ∀ i i' : grid0.Coords, (∀ a, reads0_27 a = true → i a = i' a) → cc0_transform_27 i = cc0_transform_27 i'
  hinb0_27 : ∀ (i : grid0.Coords) a, (cc0_transform_27 i a + 1) * S512x512.size a ≤ S8192x512.size a
  hwx0_27 : ∀ i : grid0.Coords, EltTy.bits .f32 = 32 ∨ (Rect.block (s := S8192x512) S512x512.size (cc0_transform_27 i) (hinb0_27 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v4) S512x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v5) S512x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v6) S1x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v7) S512x512.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S512.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v8) S512x512.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S512.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v9) S1x512.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v10) S512x512.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg24) S512.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v11) S1x512.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v12_0) S512x512.size cc0_transform_26 reads0_26 true false 2 stage0_26 sem0_26
    hrank0 hreads0_26 hinb0_26 nbuf0_26 (Memref.isWhole_whole _) hwx0_26 hstage0_26

abbrev win0_27 : Pipeline.Window sig grid0 :=
  Pipeline.Window.ofSpec (Memref.whole main_v12_1) S512x512.size cc0_transform_27 reads0_27 true false 2 stage0_27 sem0_27
    hrank0 hreads0_27 hinb0_27 nbuf0_27 (Memref.isWhole_whole _) hwx0_27 hstage0_27

abbrev win0 : Fin 28 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | ⟨_ + 28, h⟩ => absurd h (Nat.not_lt.2 (Nat.le_add_left _ _))
abbrev spec0 : Fin 28 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x1 : Shape := ⟨2, ![8192, 1]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S_ : Shape := ⟨0, ![]⟩

abbrev nBuf : Space → Nat
  | .hbm => 152
  | .vmem => 0
  | .smem => 0
  | _ => 0

abbrev hbmTy0_0 (i : Nat) : BufTy := match i % 128 with
  | 0 => ⟨S8192x512, .f32⟩
  | 1 => ⟨S8192x1, .f32⟩
  | 2 => ⟨S8192x512, .f32⟩
  | 3 => ⟨S8192x512, .f32⟩
  | 4 => ⟨S512x512, .f32⟩
  | 5 => ⟨S512, .f32⟩
  | 6 => ⟨S512x512, .f32⟩
  | 7 => ⟨S512, .f32⟩
  | 8 => ⟨S512x512, .f32⟩
  | 9 => ⟨S512, .f32⟩
  | 10 => ⟨S512x512, .f32⟩
  | 11 => ⟨S512, .f32⟩
  | 12 => ⟨S512x512, .f32⟩
  | 13 => ⟨S512, .f32⟩
  | 14 => ⟨S512x512, .f32⟩
  | 15 => ⟨S512, .f32⟩
  | 16 => ⟨S512x1, .f32⟩
  | 17 => ⟨S512, .f32⟩
  | 18 => ⟨S512x512, .f32⟩
  | 19 => ⟨S512, .f32⟩
  | 20 => ⟨S512x512, .f32⟩
  | 21 => ⟨S512, .f32⟩
  | 22 => ⟨S512x1, .f32⟩
  | 23 => ⟨S512x512, .f32⟩
  | 24 => ⟨S512, .f32⟩
  | 25 => ⟨S512x1, .f32⟩
  | 26 => ⟨S512x512, .f32⟩
  | 27 => ⟨S8192x512, .f32⟩
  | 28 => ⟨S1x512, .f32⟩
  | 29 => ⟨S8192x512, .f32⟩
  | 30 => ⟨S8192x512, .f32⟩
  | 31 => ⟨S1x512, .f32⟩
  | 32 => ⟨S8192x512, .f32⟩
  | 33 => ⟨S8192x512, .f32⟩
  | 34 => ⟨S8192x512, .f32⟩
  | 35 => ⟨S_, .f32⟩
  | 36 => ⟨S8192x512, .f32⟩
  | 37 => ⟨S8192x512, .f32⟩
  | 38 => ⟨S_, .f32⟩
  | 39 => ⟨S8192x512, .f32⟩
  | 40 => ⟨S8192x512, .f32⟩
  | 41 => ⟨S8192x512, .f32⟩
  | 42 => ⟨S8192x512, .f32⟩
  | 43 => ⟨S8192x512, .f32⟩
  | 44 => ⟨S_, .f32⟩
  | 45 => ⟨S8192x512, .f32⟩
  | 46 => ⟨S8192x512, .f32⟩
  | 47 => ⟨S_, .f32⟩
  | 48 => ⟨S8192x512, .f32⟩
  | 49 => ⟨S8192x512, .f32⟩
  | 50 => ⟨S512x512, .f32⟩
  | 51 => ⟨S8192x512, .f32⟩
  | 52 => ⟨S1x512, .f32⟩
  | 53 => ⟨S8192x512, .f32⟩
  | 54 => ⟨S8192x512, .f32⟩
  | 55 => ⟨S1x512, .f32⟩
  | 56 => ⟨S8192x512, .f32⟩
  | 57 => ⟨S8192x512, .f32⟩
  | 58 => ⟨S8192x512, .f32⟩
  | 59 => ⟨S_, .f32⟩
  | 60 => ⟨S8192x512, .f32⟩
  | 61 => ⟨S8192x512, .f32⟩
  | 62 => ⟨S_, .f32⟩
  | 63 => ⟨S8192x512, .f32⟩
  | 64 => ⟨S8192x512, .f32⟩
  | 65 => ⟨S8192x512, .f32⟩
  | 66 => ⟨S8192x512, .f32⟩
  | 67 => ⟨S8192x512, .f32⟩
  | 68 => ⟨S_, .f32⟩
  | 69 => ⟨S8192x512, .f32⟩
  | 70 => ⟨S8192x512, .f32⟩
  | 71 => ⟨S_, .f32⟩
  | 72 => ⟨S8192x512, .f32⟩
  | 73 => ⟨S8192x512, .f32⟩
  | 74 => ⟨S512x512, .f32⟩
  | 75 => ⟨S8192x512, .f32⟩
  | 76 => ⟨S1x512, .f32⟩
  | 77 => ⟨S8192x512, .f32⟩
  | 78 => ⟨S8192x512, .f32⟩
  | 79 => ⟨S512x512, .f32⟩
  | 80 => ⟨S8192x512, .f32⟩
  | 81 => ⟨S1x512, .f32⟩
  | 82 => ⟨S8192x512, .f32⟩
  | 83 => ⟨S8192x512, .f32⟩
  | 84 => ⟨S8192x512, .f32⟩
  | 85 => ⟨S8192x512, .f32⟩
  | 86 => ⟨S8192x512, .f32⟩
  | 87 => ⟨S_, .f32⟩
  | 88 => ⟨S8192x512, .f32⟩
  | 89 => ⟨S8192x512, .f32⟩
  | 90 => ⟨S_, .f32⟩
  | 91 => ⟨S8192x512, .f32⟩
  | 92 => ⟨S8192x512, .f32⟩
  | 93 => ⟨S512x512, .f32⟩
  | 94 => ⟨S8192x512, .f32⟩
  | 95 => ⟨S1x512, .f32⟩
  | 96 => ⟨S8192x512, .f32⟩
  | 97 => ⟨S8192x512, .f32⟩
  | 98 => ⟨S512x512, .f32⟩
  | 99 => ⟨S8192x512, .f32⟩
  | 100 => ⟨S1x512, .f32⟩
  | 101 => ⟨S8192x512, .f32⟩
  | 102 => ⟨S8192x512, .f32⟩
  | 103 => ⟨S8192x512, .f32⟩
  | 104 => ⟨S8192x512, .f32⟩
  | 105 => ⟨S8192x512, .f32⟩
  | 106 => ⟨S_, .f32⟩
  | 107 => ⟨S8192x512, .f32⟩
  | 108 => ⟨S8192x512, .f32⟩
  | 109 => ⟨S8192x512, .f32⟩
  | 110 => ⟨S8192x512, .f32⟩
  | 111 => ⟨S8192x512, .f32⟩
  | 112 => ⟨S_, .f32⟩
  | 113 => ⟨S8192x512, .f32⟩
  | 114 => ⟨S8192x512, .f32⟩
  | 115 => ⟨S8192x512, .f32⟩
  | 116 => ⟨S8192x512, .f32⟩
  | 117 => ⟨S8192x512, .f32⟩
  | 118 => ⟨S8192x512, .f32⟩
  | 119 => ⟨S512x512, .f32⟩
  | 120 => ⟨S8192x512, .f32⟩
  | 121 => ⟨S1x512, .f32⟩
  | 122 => ⟨S8192x512, .f32⟩
  | 123 => ⟨S8192x512, .f32⟩
  | 124 => ⟨S1x512, .f32⟩
  | 125 => ⟨S8192x512, .f32⟩
  | 126 => ⟨S1x512, .f32⟩
  | 127 => ⟨S8192x512, .f32⟩
  | _ => ⟨S8192x512, .f32⟩

abbrev hbmTy0_1 (i : Nat) : BufTy := match i % 128 with
  | 0 => ⟨S8192x512, .f32⟩
  | 1 => ⟨S8192x512, .f32⟩
  | 2 => ⟨S512x512, .f32⟩
  | 3 => ⟨S8192x512, .f32⟩
  | 4 => ⟨S1x512, .f32⟩
  | 5 => ⟨S8192x512, .f32⟩
  | 6 => ⟨S8192x512, .f32⟩
  | 7 => ⟨S8192x512, .f32⟩
  | 8 => ⟨S512x512, .f32⟩
  | 9 => ⟨S8192x512, .f32⟩
  | 10 => ⟨S1x512, .f32⟩
  | 11 => ⟨S8192x512, .f32⟩
  | 12 => ⟨S8192x512, .f32⟩
  | 13 => ⟨S8192x512, .f32⟩
  | 14 => ⟨S8192x512, .f32⟩
  | 15 => ⟨S8192x512, .f32⟩
  | 16 => ⟨S_, .f32⟩
  | 17 => ⟨S8192x512, .f32⟩
  | 18 => ⟨S8192x512, .f32⟩
  | 19 => ⟨S_, .f32⟩
  | 20 => ⟨S8192x512, .f32⟩
  | 21 => ⟨S8192x512, .f32⟩
  | 22 => ⟨S8192x512, .f32⟩
  | 23 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_cst : Ref sig .tc := ⟨.hbm, 35, rfl⟩
abbrev main_v9 : Ref sig .tc := ⟨.hbm, 36, rfl⟩
abbrev main_v10 : Ref sig .tc := ⟨.hbm, 37, rfl⟩
abbrev main_cst_0 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_1 : Ref sig .tc := ⟨.hbm, 44, rfl⟩
abbrev main_v16 : Ref sig .tc := ⟨.hbm, 45, rfl⟩
abbrev main_v17 : Ref sig .tc := ⟨.hbm, 46, rfl⟩
abbrev main_cst_2 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_3 : Ref sig .tc := ⟨.hbm, 59, rfl⟩
abbrev main_v29 : Ref sig .tc := ⟨.hbm, 60, rfl⟩
abbrev main_v30 : Ref sig .tc := ⟨.hbm, 61, rfl⟩
abbrev main_cst_4 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_5 : Ref sig .tc := ⟨.hbm, 68, rfl⟩
abbrev main_v36 : Ref sig .tc := ⟨.hbm, 69, rfl⟩
abbrev main_v37 : Ref sig .tc := ⟨.hbm, 70, rfl⟩
abbrev main_cst_6 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_7 : Ref sig .tc := ⟨.hbm, 87, rfl⟩
abbrev main_v53 : Ref sig .tc := ⟨.hbm, 88, rfl⟩
abbrev main_v54 : Ref sig .tc := ⟨.hbm, 89, rfl⟩
abbrev main_cst_8 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_9 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_10 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_11 : Ref sig .tc := ⟨.hbm, 144, rfl⟩
abbrev main_v106 : Ref sig .tc := ⟨.hbm, 145, rfl⟩
abbrev main_v107 : Ref sig .tc := ⟨.hbm, 146, rfl⟩
abbrev main_cst_12 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  transposes_S512x1_S1x512_1_0 : S512x1.Transposes [1, 0] S1x512
  bcast_S_S8192x512 : S_.BroadcastsInDim S8192x512 (![] : Fin 0 → Fin S8192x512.rank)
  dot_S8192x512_S512x512_S8192x512_1_0_0_1_n_n_wf : DotDims.WF S8192x512 S512x512 S8192x512 [1] [0] [0] [1] [] []
  dot_S8192x1_S1x512_S8192x512_1_0_0_1_n_n_wf : DotDims.WF S8192x1 S1x512 S8192x512 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x1_S1x512_S8192x512_1_0_0_1_n_n : DotDims S8192x1 S1x512 S8192x512 where
  lhsContracting := [1]
  rhsContracting := [0]
  lhsNonContracting := [0]
  rhsNonContracting := [1]
  lhsBatch := []
  rhsBatch := []
  wf := dot_S8192x1_S1x512_S8192x512_1_0_0_1_n_n_wf

class Facts : Prop extends Facts₀ where

variable [Facts]
-- ==== Proof.Spec.lean ====
/-
  The time-aware LSTM cell that both programs compute, written once, one batch row at a time, on the extended reals.

  A row of the batch carries an input vector x, a scalar elapsed time dt, a hidden state and a cell state (each vector of
  length 512). With the affine maps lin(a, W, b)[h] = (sum over k of a[k] * W[h, k]) + b[h] and the sigmoid sg, the cell is

      tm1 = sg (lin(x, Wit1, bit1) + sg (dt * Wtt1))        tm2 = sg (lin(x, Wit2, bit2) + sg (dt * Wtt2))
      im  = sg (lin(x, Wii, bii) + lin(hid, Whi, bhi))      cand = tanh (lin(x, Wig, big) + lin(hid, Whg, bhg))
      cmt = (1 - im * tm1) * cell + (im * tm1) * cand       cmNew = (1 - im) * cell + (im * tm2) * cand
      om  = sg (((lin(x, Wio, bio) + (dt * Wto + bto)) + lin(hid, Who, bho)) + lin(cmt, Wco, bco))
      hmNew = om * tanh cmt

  Every sum and product is grouped exactly as both programs group it, so no law of the extended reals beyond
  reading each operation at an index is needed to meet either program; the only arithmetic fact is that the f32 word
  0x3F800000 denotes 1, which turns the host's spelt-out 1 / (1 + exp (-x)) into the one sigmoid.

  Below the cell: the few layout operations the kernel's body applies to its 512 x 512 blocks, read at an index (a bias
  vector laid along the rows, a weight row laid along the rows, the dt column laid along the columns).
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.TimeLstm

open Idealize.ShloMosaic Idealize.ShloMosaic.ValueIdx

/-! ## The scalar pieces -/

/-- The number both programs write as the f32 word of 1.0. -/
def one : EReal := Ideal.ofBits .f32 0x3F800000#32

/-- That word denotes the real number 1. -/
theorem one_eq : one = 1 := by
  unfold one
  simp [Ideal.ofBits, Ideal.ieee, -EReal.coe_mul]
  norm_num

/-- The sigmoid 1 / (1 + e^(-x)) on the extended reals (0 at -inf, 1 at +inf). -/
def sg (x : EReal) : EReal := Ideal.logistic x

/-- The sigmoid spelt out with both ones written as the f32 word, as the reference's host operations spell it. -/
theorem sg_spelt (x : EReal) : Ideal.div one (one + Ideal.exp (-x)) = sg x := by
  rw [one_eq]; rfl

/-- Output h of an affine map: the row a against row h of the weight matrix W (laid out [out, in]), plus the bias. -/
def lin (a : Fin 512 → EReal) (W : Fin 512 → Fin 512 → EReal) (b : Fin 512 → EReal) (h : Fin 512) : EReal :=
  (∑ k : Fin 512, a k * W h k) + b h

/-- The cell's parameters: nine square weight matrices laid out [out, in], ten bias vectors, and the three weight
    columns that multiply the elapsed time. -/
structure Weights where
  Wii : Fin 512 → Fin 512 → EReal
  bii : Fin 512 → EReal
  Whi : Fin 512 → Fin 512 → EReal
  bhi : Fin 512 → EReal
  Wig : Fin 512 → Fin 512 → EReal
  big : Fin 512 → EReal
  Whg : Fin 512 → Fin 512 → EReal
  bhg : Fin 512 → EReal
  Wio : Fin 512 → Fin 512 → EReal
  bio : Fin 512 → EReal
  Who : Fin 512 → Fin 512 → EReal
  bho : Fin 512 → EReal
  Wto : Fin 512 → EReal
  bto : Fin 512 → EReal
  Wco : Fin 512 → Fin 512 → EReal
  bco : Fin 512 → EReal
  Wit1 : Fin 512 → Fin 512 → EReal
  bit1 : Fin 512 → EReal
  Wtt1 : Fin 512 → EReal
  Wit2 : Fin 512 → Fin 512 → EReal
  bit2 : Fin 512 → EReal
  Wtt2 : Fin 512 → EReal

/-- One row of the batch: the input, the elapsed time, the hidden state and the cell state. -/
structure Row where
  x : Fin 512 → EReal
  dt : EReal
  hid : Fin 512 → EReal
  cell : Fin 512 → EReal

/-! ## The cell -/

/-- The first time gate. -/
def tm1 (w : Weights) (r : Row) (h : Fin 512) : EReal := sg (lin r.x w.Wit1 w.bit1 h + sg (r.dt * w.Wtt1 h))

/-- The second time gate. -/
def tm2 (w : Weights) (r : Row) (h : Fin 512) : EReal := sg (lin r.x w.Wit2 w.bit2 h + sg (r.dt * w.Wtt2 h))

/-- The input gate. -/
def im (w : Weights) (r : Row) (h : Fin 512) : EReal := sg (lin r.x w.Wii w.bii h + lin r.hid w.Whi w.bhi h)

/-- The candidate cell input. -/
def cand (w : Weights) (r : Row) (h : Fin 512) : EReal :=
  Ideal.tanh (lin r.x w.Wig w.big h + lin r.hid w.Whg w.bhg h)

/-- The intermediate cell state, gated by the first time gate. -/
def cmt (w : Weights) (r : Row) (h : Fin 512) : EReal :=
  (one - im w r h * tm1 w r h) * r.cell h + (im w r h * tm1 w r h) * cand w r h

/-- The new cell state (the second result), gated by the second time gate. -/
def cmNew (w : Weights) (r : Row) (h : Fin 512) : EReal :=
  (one - im w r h) * r.cell h + (im w r h * tm2 w r h) * cand w r h

/-- The output gate: it reads the whole intermediate cell state of the row through Wco. -/
def om (w : Weights) (r : Row) (h : Fin 512) : EReal :=
  sg (((lin r.x w.Wio w.bio h + (r.dt * w.Wto h + w.bto h)) + lin r.hid w.Who w.bho h) + lin (cmt w r) w.Wco w.bco h)

/-- The new hidden state (the first result). -/
def hmNew (w : Weights) (r : Row) (h : Fin 512) : EReal := om w r h * Ideal.tanh (cmt w r h)

/-! ## The two results as functions of the twenty-six argument arrays

The arguments in @main's order: x [8192, 512], dt [8192, 1], hidden and cell [8192, 512]; then Wii, bii, Whi, bhi, Wig,
big, Whg, bhg, Wio, bio, Who, bho (weights [512, 512] laid out [out, in], biases [512]), Wto [512, 1], bto, Wco, bco,
Wit1, bit1, Wtt1 [512, 1], Wit2, bit2, Wtt2 [512, 1]. -/

/-- The cell's parameters read off the argument arrays as stored. -/
def argWeights (a4 : (⟨2, ![512, 512]⟩ : Shape).Idx → EReal) (a5 : (⟨1, ![512]⟩ : Shape).Idx → EReal) (a6 : (⟨2, ![512, 512]⟩ : Shape).Idx → EReal) (a7 : (⟨1, ![512]⟩ : Shape).Idx → EReal) (a8 : (⟨2, ![512, 512]⟩ : Shape).Idx → EReal) (a9 : (⟨1, ![512]⟩ : Shape).Idx → EReal) (a10 : (⟨2, ![512, 512]⟩ : Shape).Idx → EReal) (a11 : (⟨1, ![512]⟩ : Shape).Idx → EReal) (a12 : (⟨2, ![512, 512]⟩ : Shape).Idx → EReal) (a13 : (⟨1, ![512]⟩ : Shape).Idx → EReal) (a14 : (⟨2, ![512, 512]⟩ : Shape).Idx → EReal) (a15 : (⟨1, ![512]⟩ : Shape).Idx → EReal) (a16 : (⟨2, ![512, 1]⟩ : Shape).Idx → EReal) (a17 : (⟨1, ![512]⟩ : Shape).Idx → EReal) (a18 : (⟨2, ![512, 512]⟩ : Shape).Idx → EReal) (a19 : (⟨1, ![512]⟩ : Shape).Idx → EReal) (a20 : (⟨2, ![512, 512]⟩ : Shape).Idx → EReal) (a21 : (⟨1, ![512]⟩ : Shape).Idx → EReal) (a22 : (⟨2, ![512, 1]⟩ : Shape).Idx → EReal) (a23 : (⟨2, ![512, 512]⟩ : Shape).Idx → EReal) (a24 : (⟨1, ![512]⟩ : Shape).Idx → EReal) (a25 : (⟨2, ![512, 1]⟩ : Shape).Idx → EReal) : Weights where
  Wii := fun h k => a4 (ix2 h k)
  bii := fun h => a5 (ix1 h)
  Whi := fun h k => a6 (ix2 h k)
  bhi := fun h => a7 (ix1 h)
  Wig := fun h k => a8 (ix2 h k)
  big := fun h => a9 (ix1 h)
  Whg := fun h k => a10 (ix2 h k)
  bhg := fun h => a11 (ix1 h)
  Wio := fun h k => a12 (ix2 h k)
  bio := fun h => a13 (ix1 h)
  Who := fun h k => a14 (ix2 h k)
  bho := fun h => a15 (ix1 h)
  Wto := fun h => a16 (ix2 h (0 : Fin 1))
  bto := fun h => a17 (ix1 h)
  Wco := fun h k => a18 (ix2 h k)
  bco := fun h => a19 (ix1 h)
  Wit1 := fun h k => a20 (ix2 h k)
  bit1 := fun h => a21 (ix1 h)
  Wtt1 := fun h => a22 (ix2 h (0 : Fin 1))
  Wit2 := fun h k => a23 (ix2 h k)
  bit2 := fun h => a24 (ix1 h)
  Wtt2 := fun h => a25 (ix2 h (0 : Fin 1))

/-- Row r of the batch, read off the four batch arrays. -/
def argRow (a0 : (⟨2, ![8192, 512]⟩ : Shape).Idx → EReal) (a1 : (⟨2, ![8192, 1]⟩ : Shape).Idx → EReal) (a2 : (⟨2, ![8192, 512]⟩ : Shape).Idx → EReal) (a3 : (⟨2, ![8192, 512]⟩ : Shape).Idx → EReal) (r : Fin 8192) : Row where
  x := fun k => a0 (ix2 r k)
  dt := a1 (ix2 r (0 : Fin 1))
  hid := fun k => a2 (ix2 r k)
  cell := fun k => a3 (ix2 r k)

/-- The first result, the new hidden state [8192, 512]: entry (r, h) is the cell's `hmNew` of row r at h. -/
def hmArr (a0 : (⟨2, ![8192, 512]⟩ : Shape).Idx → EReal) (a1 : (⟨2, ![8192, 1]⟩ : Shape).Idx → EReal) (a2 : (⟨2, ![8192, 512]⟩ : Shape).Idx → EReal) (a3 : (⟨2, ![8192, 512]⟩ : Shape).Idx → EReal) (a4 : (⟨2, ![512, 512]⟩ : Shape).Idx → EReal) (a5 : (⟨1, ![512]⟩ : Shape).Idx → EReal) (a6 : (⟨2, ![512, 512]⟩ : Shape).Idx → EReal) (a7 : (⟨1, ![512]⟩ : Shape).Idx → EReal) (a8 : (⟨2, ![512, 512]⟩ : Shape).Idx → EReal) (a9 : (⟨1, ![512]⟩ : Shape).Idx → EReal) (a10 : (⟨2, ![512, 512]⟩ : Shape).Idx → EReal) (a11 : (⟨1, ![512]⟩ : Shape).Idx → EReal) (a12 : (⟨2, ![512, 512]⟩ : Shape).Idx → EReal) (a13 : (⟨1, ![512]⟩ : Shape).Idx → EReal) (a14 : (⟨2, ![512, 512]⟩ : Shape).Idx → EReal) (a15 : (⟨1, ![512]⟩ : Shape).Idx → EReal) (a16 : (⟨2, ![512, 1]⟩ : Shape).Idx → EReal) (a17 : (⟨1, ![512]⟩ : Shape).Idx → EReal) (a18 : (⟨2, ![512, 512]⟩ : Shape).Idx → EReal) (a19 : (⟨1, ![512]⟩ : Shape).Idx → EReal) (a20 : (⟨2, ![512, 512]⟩ : Shape).Idx → EReal) (a21 : (⟨1, ![512]⟩ : Shape).Idx → EReal) (a22 : (⟨2, ![512, 1]⟩ : Shape).Idx → EReal) (a23 : (⟨2, ![512, 512]⟩ : Shape).Idx → EReal) (a24 : (⟨1, ![512]⟩ : Shape).Idx → EReal) (a25 : (⟨2, ![512, 1]⟩ : Shape).Idx → EReal) : (⟨2, ![8192, 512]⟩ : Shape).Idx → EReal :=
  fun i => hmNew (argWeights a4 a5 a6 a7 a8 a9 a10 a11 a12 a13 a14 a15 a16 a17 a18 a19 a20 a21 a22 a23 a24 a25) (argRow a0 a1 a2 a3 (i 0)) (i 1)

/-- The second result, the new cell state [8192, 512]: entry (r, h) is the cell's `cmNew` of row r at h. -/
def cmArr (a0 : (⟨2, ![8192, 512]⟩ : Shape).Idx → EReal) (a1 : (⟨2, ![8192, 1]⟩ : Shape).Idx → EReal) (a2 : (⟨2, ![8192, 512]⟩ : Shape).Idx → EReal) (a3 : (⟨2, ![8192, 512]⟩ : Shape).Idx → EReal) (a4 : (⟨2, ![512, 512]⟩ : Shape).Idx → EReal) (a5 : (⟨1, ![512]⟩ : Shape).Idx → EReal) (a6 : (⟨2, ![512, 512]⟩ : Shape).Idx → EReal) (a7 : (⟨1, ![512]⟩ : Shape).Idx → EReal) (a8 : (⟨2, ![512, 512]⟩ : Shape).Idx → EReal) (a9 : (⟨1, ![512]⟩ : Shape).Idx → EReal) (a10 : (⟨2, ![512, 512]⟩ : Shape).Idx → EReal) (a11 : (⟨1, ![512]⟩ : Shape).Idx → EReal) (a12 : (⟨2, ![512, 512]⟩ : Shape).Idx → EReal) (a13 : (⟨1, ![512]⟩ : Shape).Idx → EReal) (a14 : (⟨2, ![512, 512]⟩ : Shape).Idx → EReal) (a15 : (⟨1, ![512]⟩ : Shape).Idx → EReal) (a16 : (⟨2, ![512, 1]⟩ : Shape).Idx → EReal) (a17 : (⟨1, ![512]⟩ : Shape).Idx → EReal) (a18 : (⟨2, ![512, 512]⟩ : Shape).Idx → EReal) (a19 : (⟨1, ![512]⟩ : Shape).Idx → EReal) (a20 : (⟨2, ![512, 512]⟩ : Shape).Idx → EReal) (a21 : (⟨1, ![512]⟩ : Shape).Idx → EReal) (a22 : (⟨2, ![512, 1]⟩ : Shape).Idx → EReal) (a23 : (⟨2, ![512, 512]⟩ : Shape).Idx → EReal) (a24 : (⟨1, ![512]⟩ : Shape).Idx → EReal) (a25 : (⟨2, ![512, 1]⟩ : Shape).Idx → EReal) : (⟨2, ![8192, 512]⟩ : Shape).Idx → EReal :=
  fun i => cmNew (argWeights a4 a5 a6 a7 a8 a9 a10 a11 a12 a13 a14 a15 a16 a17 a18 a19 a20 a21 a22 a23 a24 a25) (argRow a0 a1 a2 a3 (i 0)) (i 1)

/-! ## Layout operations of a 512 x 512 block, read at an index -/

section Layout

variable {α : Type}

/-- A bias vector [512] cast to one row [1, 512] and laid over 512 rows reads, at (p, q), the vector at q. -/
theorem bias_rows_apply (b : (⟨1, ![512]⟩ : Shape).Idx → α) (h1 : (⟨1, ![512]⟩ : Shape).ShapeCasts ⟨2, ![1, 512]⟩)
    (h2 : (⟨2, ![1, 512]⟩ : Shape).Broadcasts ⟨2, ![512, 512]⟩) (p q : Fin 512) :
    broadcastTo ⟨2, ![512, 512]⟩ (shapeCast ⟨2, ![1, 512]⟩ b h1) h2 (ix2 p q) = b (ix1 q) := by
  rw [broadcastTo_1b_ab_apply, shapeCast_a_1a_apply]

/-- A weight row [1, 512] (cast to its own shape) laid over 512 rows reads, at (p, q), the row at q. -/
theorem row_rows_apply (v : (⟨2, ![1, 512]⟩ : Shape).Idx → α) (h1 : (⟨2, ![1, 512]⟩ : Shape).ShapeCasts ⟨2, ![1, 512]⟩)
    (h2 : (⟨2, ![1, 512]⟩ : Shape).Broadcasts ⟨2, ![512, 512]⟩) (p q : Fin 512) :
    broadcastTo ⟨2, ![512, 512]⟩ (shapeCast ⟨2, ![1, 512]⟩ v h1) h2 (ix2 p q) = v (ix2 (0 : Fin 1) q) := by
  rw [broadcastTo_1b_ab_apply, shapeCast_self]

/-- A column [512, 1] laid over 512 columns reads, at (p, q), the column at p. -/
theorem col_cols_apply (v : (⟨2, ![512, 1]⟩ : Shape).Idx → α) (h : (⟨2, ![512, 1]⟩ : Shape).Broadcasts ⟨2, ![512, 512]⟩)
    (p q : Fin 512) : broadcastTo ⟨2, ![512, 512]⟩ v h (ix2 p q) = v (ix2 p (0 : Fin 1)) := by
  refine broadcastTo_apply v h (ix2 p q) (ix2 p (0 : Fin 1)) fun ax => ?_
  match ax with
  | ⟨0, _⟩ =>
    show p.val = if (512 : Nat) = 1 then 0 else p.val
    rw [if_neg (by decide)]
  | ⟨1, _⟩ =>
    show (0 : Nat) = if (1 : Nat) = 1 then 0 else q.val
    rw [if_pos rfl]

end Layout

end Cert.TimeLstm

end
-- ==== Proof.KernelBody.lean ====
/-
  What the kernel's body computes on one grid point's blocks, at the extended reals.

  The body loads a 512-row block of x, dt, the hidden state and the cell state, and every weight WHOLE (the square
  weights arrive transposed, [in, out]; the three time weights as one row [1, 512]). Every float-format change is the
  identity here, and a matrix product into the zero accumulator is the plain sum over the contracted axis, so entry
  (p, q) of each stored block is the cell of Spec.lean applied to row p of the blocks, with weight entry [h, k] read at
  (k, h) of the transposed block: `body_hm` and `body_cm`.
-/
import proofs.«172006_j1331439862441_1_alg».proof.Proof.Gen.KernelIdeal.Skeleton
import proofs.«172006_j1331439862441_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.TimeLstm

/-! ## The matrix product of two 512 x 512 blocks at an entry -/

theorem lhs_mm_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_mm_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_mm_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_mm_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- Rows times columns: entry (p, q) of the product into the zero accumulator is the sum over k of a[p, k] * w[k, q]. -/
theorem mm_apply {φ₁ φ₂ : FTy} (a : FVec Ideal S512x512 φ₁) (w : FVec Ideal S512x512 φ₂) (p q : Fin 512) :
    matmul dot_S512x512_S512x512_S512x512_1_0_0_1_n_n none a w (constant (F := Ideal) S512x512 .f32 0x00000000#32) (ix2 p q)
      = ∑ k : Fin 512, a (ix2 p k) * w (ix2 k q) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun a => Fin.ext (by
    match a with
    | ⟨0, _⟩ => exact lhs_mm_0 _ _
    | ⟨1, _⟩ => exact (lhs_mm_1 _ _).trans hk)
  have er : dot_S512x512_S512x512_S512x512_1_0_0_1_n_n.rhsIdx (ix2 p q) ((contrEquiv1 dot_S512x512_S512x512_S512x512_1_0_0_1_n_n 512 rfl rfl).symm k) = ix2 k q := funext fun a => Fin.ext (by
    match a with
    | ⟨0, _⟩ => exact (rhs_mm_0 _ _).trans hk
    | ⟨1, _⟩ => exact rhs_mm_1 _ _)
  rw [el, er]

/-- One affine map of the body: a block a (already in the product's input format) times the transposed weight block wt
    (cast to its own shape, then to bf16), plus the bias laid over the rows, at entry (p, q), is `lin` of row p of a
    against column q of wt. -/
theorem lin_apply {φ₁ : FTy} (a : FVec Ideal S512x512 φ₁) (wt : Vec Ideal S512x512 .f32) (b : Vec Ideal S512 .f32) (p q : Fin 512) :
    addf (matmul dot_S512x512_S512x512_S512x512_1_0_0_1_n_n none a
        (truncf .bf16 (shapeCast S512x512 wt shapeCasts_S512x512_S512x512) bitsLt_bf16_f32)
        (constant (F := Ideal) S512x512 .f32 0x00000000#32))
      (broadcastTo S512x512 (shapeCast S1x512 b shapeCasts_S512_S1x512) broadcasts_S1x512_S512x512) (ix2 p q)
      = lin (fun k => a (ix2 p k)) (fun h k => wt (ix2 k h)) (fun h => b (ix1 h)) q := by
  rw [addf_apply, mm_apply, bias_rows_apply, shapeCast_self]
  rfl

/-- The elapsed time against a time-weight row: dt[p] * w[q]. -/
theorem dt_apply (dt : Vec Ideal S512x1 .f32) (wrow : Vec Ideal S1x512 .f32) (p q : Fin 512) :
    mulf (F := Ideal) (φ := .f32) (broadcastTo S512x512 dt broadcasts_S512x1_S512x512)
      (broadcastTo S512x512 (shapeCast S1x512 wrow shapeCasts_S1x512_S1x512) broadcasts_S1x512_S512x512) (ix2 p q)
      = dt (ix2 p (0 : Fin 1)) * wrow (ix2 (0 : Fin 1) q) := by
  rw [mulf_apply, col_cols_apply, row_rows_apply]

/-! ## The pointwise operations at an entry -/

theorem logistic_apply {s : Shape} {φ : FTy} (a : FVec Ideal s φ) (i : s.Idx) : logistic a i = sg (a i) := rfl
theorem tanh_apply {s : Shape} {φ : FTy} (a : FVec Ideal s φ) (i : s.Idx) : tanh a i = Ideal.tanh (a i) := rfl

/-! ## The body's values at an entry -/

/-- A time gate: sg (lin(x, W, b) + sg (dt * wt)). -/
theorem pay2_apply (v0 : Vec Ideal S512x512 .f32) (v1 : Vec Ideal S512x1 .f32) (v5 : Vec Ideal S512x512 .f32) (v9 : Vec Ideal S512 .f32) (v13 : Vec Ideal S1x512 .f32) (p q : Fin 512) :
    k0_pay2 v0 v1 v5 v9 v13 (ix2 p q)
      = sg (lin (fun k => v0 (ix2 p k)) (fun h k => v5 (ix2 k h)) (fun h => v9 (ix1 h)) q
          + sg (v1 (ix2 p (0 : Fin 1)) * v13 (ix2 (0 : Fin 1) q))) := by
  unfold k0_pay2
  rw [logistic_apply, addf_apply, lin_apply, logistic_apply, dt_apply]
  rfl

/-- The other time gate: the same body text over its own weights. -/
theorem pay3_apply (v0 : Vec Ideal S512x512 .f32) (v1 : Vec Ideal S512x1 .f32) (v22 : Vec Ideal S512x512 .f32) (v26 : Vec Ideal S512 .f32) (v30 : Vec Ideal S1x512 .f32) (p q : Fin 512) :
    k0_pay3 v0 v1 v22 v26 v30 (ix2 p q)
      = sg (lin (fun k => v0 (ix2 p k)) (fun h k => v22 (ix2 k h)) (fun h => v26 (ix1 h)) q
          + sg (v1 (ix2 p (0 : Fin 1)) * v30 (ix2 (0 : Fin 1) q))) := by
  unfold k0_pay3
  rw [logistic_apply, addf_apply, lin_apply, logistic_apply, dt_apply]
  rfl

/-- The input gate: sg (lin(x, Wi, bi) + lin(hid, Wh, bh)); x arrives already cast to bf16. -/
theorem pay5_apply (v2 : Vec Ideal S512x512 .f32) (v38 : FVec Ideal S512x512 .bf16) (v39 : Vec Ideal S512x512 .f32) (v43 : Vec Ideal S512 .f32) (v48 : Vec Ideal S512x512 .f32) (v52 : Vec Ideal S512 .f32) (p q : Fin 512) :
    k0_pay5 v2 v38 v39 v43 v48 v52 (ix2 p q)
      = sg (lin (fun k => v38 (ix2 p k)) (fun h k => v39 (ix2 k h)) (fun h => v43 (ix1 h)) q
          + lin (fun k => v2 (ix2 p k)) (fun h k => v48 (ix2 k h)) (fun h => v52 (ix1 h)) q) := by
  unfold k0_pay5
  rw [logistic_apply, addf_apply, lin_apply, lin_apply]
  rfl

/-- The candidate: tanh (lin(x, Wi, bi) + lin(hid, Wh, bh)). -/
theorem pay6_apply (v0 : Vec Ideal S512x512 .f32) (v2 : Vec Ideal S512x512 .f32) (v59 : Vec Ideal S512x512 .f32) (v63 : Vec Ideal S512 .f32) (v68 : Vec Ideal S512x512 .f32) (v72 : Vec Ideal S512 .f32) (p q : Fin 512) :
    k0_pay6 v0 v2 v59 v63 v68 v72 (ix2 p q)
      = Ideal.tanh (lin (fun k => v0 (ix2 p k)) (fun h k => v59 (ix2 k h)) (fun h => v63 (ix1 h)) q
          + lin (fun k => v2 (ix2 p k)) (fun h k => v68 (ix2 k h)) (fun h => v72 (ix1 h)) q) := by
  unfold k0_pay6
  rw [tanh_apply, addf_apply, lin_apply, lin_apply]
  rfl

/-- The gate product im * tm1. -/
theorem pay7_apply (v2 : Vec Ideal S512x512 .f32) (v20 : FVec Ideal S512x512 .f32) (v38 : FVec Ideal S512x512 .bf16) (v39 : Vec Ideal S512x512 .f32) (v43 : Vec Ideal S512 .f32) (v48 : Vec Ideal S512x512 .f32) (v52 : Vec Ideal S512 .f32) (i : S512x512.Idx) :
    k0_pay7 v2 v20 v38 v39 v43 v48 v52 i = k0_pay5 v2 v38 v39 v43 v48 v52 i * v20 i := rfl

/-- (1 - im * tm1) * cell. -/
theorem pay8_apply (v2 : Vec Ideal S512x512 .f32) (v3 : Vec Ideal S512x512 .f32) (v20 : FVec Ideal S512x512 .f32) (v38 : FVec Ideal S512x512 .bf16) (v39 : Vec Ideal S512x512 .f32) (v43 : Vec Ideal S512 .f32) (v48 : Vec Ideal S512x512 .f32) (v52 : Vec Ideal S512 .f32) (i : S512x512.Idx) :
    k0_pay8 v2 v3 v20 v38 v39 v43 v48 v52 i = (one - k0_pay7 v2 v20 v38 v39 v43 v48 v52 i) * v3 i := rfl

/-- The intermediate cell state from its three pieces. -/
theorem pay9_apply (v77 v78 v81 : FVec Ideal S512x512 .f32) (i : S512x512.Idx) :
    k0_pay9 v77 v78 v81 i = v81 i + v78 i * v77 i := rfl

/-- The new cell state from the cell, the second time gate, the input gate and the candidate. -/
theorem pay10_apply (v3 : Vec Ideal S512x512 .f32) (v37 v57 v77 : FVec Ideal S512x512 .f32) (i : S512x512.Idx) :
    k0_pay10 v3 v37 v57 v77 i = (one - v57 i) * v3 i + (v57 i * v37 i) * v77 i := rfl

/-- The first three summands under the output gate's sigmoid. -/
theorem pay11_apply (v0 : Vec Ideal S512x512 .f32) (v1 : Vec Ideal S512x1 .f32) (v2 : Vec Ideal S512x512 .f32) (v91 : Vec Ideal S512x512 .f32) (v95 : Vec Ideal S512 .f32) (v99 : Vec Ideal S1x512 .f32) (v104 : Vec Ideal S512 .f32) (v110 : Vec Ideal S512x512 .f32) (v114 : Vec Ideal S512 .f32) (p q : Fin 512) :
    k0_pay11 v0 v1 v2 v91 v95 v99 v104 v110 v114 (ix2 p q)
      = (lin (fun k => v0 (ix2 p k)) (fun h k => v91 (ix2 k h)) (fun h => v95 (ix1 h)) q
          + (v1 (ix2 p (0 : Fin 1)) * v99 (ix2 (0 : Fin 1) q) + v104 (ix1 q)))
        + lin (fun k => v2 (ix2 p k)) (fun h k => v110 (ix2 k h)) (fun h => v114 (ix1 h)) q := by
  unfold k0_pay11
  rw [addf_apply, addf_apply, lin_apply, addf_apply, dt_apply, bias_rows_apply, lin_apply]
  rfl

/-- The intermediate cell state's row against a column of the transposed Wco. -/
theorem pay12_apply (v77 v78 v81 : FVec Ideal S512x512 .f32) (v120 : Vec Ideal S512x512 .f32) (p q : Fin 512) :
    k0_pay12 v77 v78 v81 v120 (ix2 p q) = ∑ k : Fin 512, k0_pay9 v77 v78 v81 (ix2 p k) * v120 (ix2 k q) := by
  unfold k0_pay12
  rw [mm_apply]
  simp only [truncf_apply, shapeCast_self]

/-- The last bias, as one row. -/
theorem pay13_apply (v124 : Vec Ideal S512 .f32) (q : Fin 512) :
    k0_pay13 v124 (ix2 (0 : Fin 1) q) = v124 (ix1 q) := by
  unfold k0_pay13
  rw [shapeCast_a_1a_apply]

/-- The new hidden state from the intermediate cell state and the output gate's four summands. -/
theorem pay1_apply (v83 v118 v123 : FVec Ideal S512x512 .f32) (v125 : FVec Ideal S1x512 .f32) (p q : Fin 512) :
    k0_pay1 v83 v118 v123 v125 (ix2 p q)
      = sg (v118 (ix2 p q) + (v123 (ix2 p q) + v125 (ix2 (0 : Fin 1) q))) * Ideal.tanh (v83 (ix2 p q)) := by
  unfold k0_pay1
  rw [mulf_apply, logistic_apply, addf_apply, addf_apply, broadcastTo_1b_ab_apply, tanh_apply]

/-! ## The blocks as the cell's arguments -/

/-- The cell's parameters as the body holds them: weight entry [h, k] sits at (k, h) of the transposed block, a time
    weight at (0, h) of its row. -/
def blockWeights (x4 : Vec Ideal S512x512 .f32) (x5 : Vec Ideal S512 .f32) (x6 : Vec Ideal S512x512 .f32) (x7 : Vec Ideal S512 .f32) (x8 : Vec Ideal S512x512 .f32) (x9 : Vec Ideal S512 .f32) (x10 : Vec Ideal S512x512 .f32) (x11 : Vec Ideal S512 .f32) (x12 : Vec Ideal S512x512 .f32) (x13 : Vec Ideal S512 .f32) (x14 : Vec Ideal S512x512 .f32) (x15 : Vec Ideal S512 .f32) (x16 : Vec Ideal S1x512 .f32) (x17 : Vec Ideal S512 .f32) (x18 : Vec Ideal S512x512 .f32) (x19 : Vec Ideal S512 .f32) (x20 : Vec Ideal S512x512 .f32) (x21 : Vec Ideal S512 .f32) (x22 : Vec Ideal S1x512 .f32) (x23 : Vec Ideal S512x512 .f32) (x24 : Vec Ideal S512 .f32) (x25 : Vec Ideal S1x512 .f32) : Weights where
  Wii := fun h k => x4 (ix2 k h)
  bii := fun h => x5 (ix1 h)
  Whi := fun h k => x6 (ix2 k h)
  bhi := fun h => x7 (ix1 h)
  Wig := fun h k => x8 (ix2 k h)
  big := fun h => x9 (ix1 h)
  Whg := fun h k => x10 (ix2 k h)
  bhg := fun h => x11 (ix1 h)
  Wio := fun h k => x12 (ix2 k h)
  bio := fun h => x13 (ix1 h)
  Who := fun h k => x14 (ix2 k h)
  bho := fun h => x15 (ix1 h)
  Wto := fun h => x16 (ix2 (0 : Fin 1) h)
  bto := fun h => x17 (ix1 h)
  Wco := fun h k => x18 (ix2 k h)
  bco := fun h => x19 (ix1 h)
  Wit1 := fun h k => x20 (ix2 k h)
  bit1 := fun h => x21 (ix1 h)
  Wtt1 := fun h => x22 (ix2 (0 : Fin 1) h)
  Wit2 := fun h k => x23 (ix2 k h)
  bit2 := fun h => x24 (ix1 h)
  Wtt2 := fun h => x25 (ix2 (0 : Fin 1) h)

/-- Row p of the four streamed blocks. -/
def blockRow (x0 : Vec Ideal S512x512 .f32) (x1 : Vec Ideal S512x1 .f32) (x2 : Vec Ideal S512x512 .f32) (x3 : Vec Ideal S512x512 .f32) (p : Fin 512) : Row where
  x := fun k => x0 (ix2 p k)
  dt := x1 (ix2 p (0 : Fin 1))
  hid := fun k => x2 (ix2 p k)
  cell := fun k => x3 (ix2 p k)

/-- The block stored as the new cell state holds, at (p, q), the cell's `cmNew` of row p. -/
theorem body_cm (x0 : Vec Ideal S512x512 .f32) (x1 : Vec Ideal S512x1 .f32) (x2 : Vec Ideal S512x512 .f32) (x3 : Vec Ideal S512x512 .f32) (x4 : Vec Ideal S512x512 .f32) (x5 : Vec Ideal S512 .f32) (x6 : Vec Ideal S512x512 .f32) (x7 : Vec Ideal S512 .f32) (x8 : Vec Ideal S512x512 .f32) (x9 : Vec Ideal S512 .f32) (x10 : Vec Ideal S512x512 .f32) (x11 : Vec Ideal S512 .f32) (x12 : Vec Ideal S512x512 .f32) (x13 : Vec Ideal S512 .f32) (x14 : Vec Ideal S512x512 .f32) (x15 : Vec Ideal S512 .f32) (x16 : Vec Ideal S1x512 .f32) (x17 : Vec Ideal S512 .f32) (x18 : Vec Ideal S512x512 .f32) (x19 : Vec Ideal S512 .f32) (x20 : Vec Ideal S512x512 .f32) (x21 : Vec Ideal S512 .f32) (x22 : Vec Ideal S1x512 .f32) (x23 : Vec Ideal S512x512 .f32) (x24 : Vec Ideal S512 .f32) (x25 : Vec Ideal S1x512 .f32) (p q : Fin 512) :
    (k0_pay10 x3 (k0_pay3 x0 x1 x23 x24 x25) (k0_pay5 x2 (k0_pay4 x0) x4 x5 x6 x7) (k0_pay6 x0 x2 x8 x9 x10 x11)) (ix2 p q) = cmNew (blockWeights x4 x5 x6 x7 x8 x9 x10 x11 x12 x13 x14 x15 x16 x17 x18 x19 x20 x21 x22 x23 x24 x25) (blockRow x0 x1 x2 x3 p) q := by
  rw [pay10_apply, pay3_apply, pay5_apply, pay6_apply]
  rfl

/-- The body's intermediate cell state at (p, k) is the cell's `cmt` of row p. -/
theorem body_cmt (x0 : Vec Ideal S512x512 .f32) (x1 : Vec Ideal S512x1 .f32) (x2 : Vec Ideal S512x512 .f32) (x3 : Vec Ideal S512x512 .f32) (x4 : Vec Ideal S512x512 .f32) (x5 : Vec Ideal S512 .f32) (x6 : Vec Ideal S512x512 .f32) (x7 : Vec Ideal S512 .f32) (x8 : Vec Ideal S512x512 .f32) (x9 : Vec Ideal S512 .f32) (x10 : Vec Ideal S512x512 .f32) (x11 : Vec Ideal S512 .f32) (x12 : Vec Ideal S512x512 .f32) (x13 : Vec Ideal S512 .f32) (x14 : Vec Ideal S512x512 .f32) (x15 : Vec Ideal S512 .f32) (x16 : Vec Ideal S1x512 .f32) (x17 : Vec Ideal S512 .f32) (x18 : Vec Ideal S512x512 .f32) (x19 : Vec Ideal S512 .f32) (x20 : Vec Ideal S512x512 .f32) (x21 : Vec Ideal S512 .f32) (x22 : Vec Ideal S1x512 .f32) (x23 : Vec Ideal S512x512 .f32) (x24 : Vec Ideal S512 .f32) (x25 : Vec Ideal S1x512 .f32) (p k : Fin 512) :
    (k0_pay9 (k0_pay6 x0 x2 x8 x9 x10 x11) (k0_pay7 x2 (k0_pay2 x0 x1 x20 x21 x22) (k0_pay4 x0) x4 x5 x6 x7) (k0_pay8 x2 x3 (k0_pay2 x0 x1 x20 x21 x22) (k0_pay4 x0) x4 x5 x6 x7)) (ix2 p k) = cmt (blockWeights x4 x5 x6 x7 x8 x9 x10 x11 x12 x13 x14 x15 x16 x17 x18 x19 x20 x21 x22 x23 x24 x25) (blockRow x0 x1 x2 x3 p) k := by
  rw [pay9_apply, pay8_apply, pay7_apply, pay5_apply, pay2_apply, pay6_apply]
  rfl

/-- The block stored as the new hidden state holds, at (p, q), the cell's `hmNew` of row p. -/
theorem body_hm (x0 : Vec Ideal S512x512 .f32) (x1 : Vec Ideal S512x1 .f32) (x2 : Vec Ideal S512x512 .f32) (x3 : Vec Ideal S512x512 .f32) (x4 : Vec Ideal S512x512 .f32) (x5 : Vec Ideal S512 .f32) (x6 : Vec Ideal S512x512 .f32) (x7 : Vec Ideal S512 .f32) (x8 : Vec Ideal S512x512 .f32) (x9 : Vec Ideal S512 .f32) (x10 : Vec Ideal S512x512 .f32) (x11 : Vec Ideal S512 .f32) (x12 : Vec Ideal S512x512 .f32) (x13 : Vec Ideal S512 .f32) (x14 : Vec Ideal S512x512 .f32) (x15 : Vec Ideal S512 .f32) (x16 : Vec Ideal S1x512 .f32) (x17 : Vec Ideal S512 .f32) (x18 : Vec Ideal S512x512 .f32) (x19 : Vec Ideal S512 .f32) (x20 : Vec Ideal S512x512 .f32) (x21 : Vec Ideal S512 .f32) (x22 : Vec Ideal S1x512 .f32) (x23 : Vec Ideal S512x512 .f32) (x24 : Vec Ideal S512 .f32) (x25 : Vec Ideal S1x512 .f32) (p q : Fin 512) :
    (k0_pay1 (k0_pay9 (k0_pay6 x0 x2 x8 x9 x10 x11) (k0_pay7 x2 (k0_pay2 x0 x1 x20 x21 x22) (k0_pay4 x0) x4 x5 x6 x7) (k0_pay8 x2 x3 (k0_pay2 x0 x1 x20 x21 x22) (k0_pay4 x0) x4 x5 x6 x7)) (k0_pay11 x0 x1 x2 x12 x13 x16 x17 x14 x15) (k0_pay12 (k0_pay6 x0 x2 x8 x9 x10 x11) (k0_pay7 x2 (k0_pay2 x0 x1 x20 x21 x22) (k0_pay4 x0) x4 x5 x6 x7) (k0_pay8 x2 x3 (k0_pay2 x0 x1 x20 x21 x22) (k0_pay4 x0) x4 x5 x6 x7) x18) (k0_pay13 x19)) (ix2 p q) = hmNew (blockWeights x4 x5 x6 x7 x8 x9 x10 x11 x12 x13 x14 x15 x16 x17 x18 x19 x20 x21 x22 x23 x24 x25) (blockRow x0 x1 x2 x3 p) q := by
  rw [pay1_apply, pay11_apply, pay12_apply, pay13_apply]
  simp only [body_cmt x0 x1 x2 x3 x4 x5 x6 x7 x8 x9 x10 x11 x12 x13 x14 x15 x16 x17 x18 x19 x20 x21 x22 x23 x24 x25]
  rfl

end Cert.KernelIdeal.Body

end
-- ==== Proof.KernelValue.lean ====
/-
  The kernel's two result arrays after its run, as the cell of Spec.lean applied row by row to the argument arrays.

  The grid has 16 points; point t stages rows 512 t … 512 t + 511 of x, dt, the hidden state and the cell state, and
  every weight whole (block index 0 on every axis). The square weights and the three time weights reach the region
  transposed by @main's host operations, so entry (k, h) of a staged weight block is entry (h, k) of the argument array.
  Hence what point t writes back is block t of the whole-array functions `hmArr` and `cmArr`; the sixteen blocks tile
  the [8192, 512] results, so after the run each result array IS that function of the arguments.
-/
import proofs.«172006_j1331439862441_1_alg».proof.Proof.KernelIdealValueP
import proofs.«172006_j1331439862441_1_alg».proof.Proof.KernelBody
import Idealize.ShloMosaic.Lib.ValueLayout
import Idealize.ShloMosaic.Lib.StableHlo.Run

set_option maxRecDepth 16384

noncomputable section

namespace Cert.KernelIdeal.CellValue

open Cert.KernelIdeal Cert.KernelIdeal.Gen Cert.KernelIdeal.GenP Cert.KernelIdeal.ValueP Cert.KernelIdeal.Body
open Idealize.ShloMosaic Idealize.ShloMosaic.TcCoe Idealize.SL.Sem Idealize.ShloMosaic.ValueIdx Cert.TimeLstm
open Idealize.ShloMosaic.Pipeline (Dat)

variable (m : (ℓ : Loc nD τ sig) → Buf (Elt Ideal) ℓ) (ρ : Dev nD → PrngReg)

/-! ## The weights as the region finds them: @main's transposes -/

theorem V_main_v0 (c : Dev nD) : (V m c main_v0 : S512x512.Idx → EReal)
    = transpose S512x512 [1, 0] (m ((c : Thread nD τ).loc main_arg4)) transposes_S512x512_S512x512_1_0 := by
  dsimp only [V, hostOps0]; after_results

theorem V_main_v1 (c : Dev nD) : (V m c main_v1 : S512x512.Idx → EReal)
    = transpose S512x512 [1, 0] (m ((c : Thread nD τ).loc main_arg6)) transposes_S512x512_S512x512_1_0 := by
  dsimp only [V, hostOps0]; after_results

theorem V_main_v2 (c : Dev nD) : (V m c main_v2 : S512x512.Idx → EReal)
    = transpose S512x512 [1, 0] (m ((c : Thread nD τ).loc main_arg8)) transposes_S512x512_S512x512_1_0 := by
  dsimp only [V, hostOps0]; after_results

theorem V_main_v3 (c : Dev nD) : (V m c main_v3 : S512x512.Idx → EReal)
    = transpose S512x512 [1, 0] (m ((c : Thread nD τ).loc main_arg10)) transposes_S512x512_S512x512_1_0 := by
  dsimp only [V, hostOps0]; after_results

theorem V_main_v4 (c : Dev nD) : (V m c main_v4 : S512x512.Idx → EReal)
    = transpose S512x512 [1, 0] (m ((c : Thread nD τ).loc main_arg12)) transposes_S512x512_S512x512_1_0 := by
  dsimp only [V, hostOps0]; after_results

theorem V_main_v5 (c : Dev nD) : (V m c main_v5 : S512x512.Idx → EReal)
    = transpose S512x512 [1, 0] (m ((c : Thread nD τ).loc main_arg14)) transposes_S512x512_S512x512_1_0 := by
  dsimp only [V, hostOps0]; after_results

theorem V_main_v7 (c : Dev nD) : (V m c main_v7 : S512x512.Idx → EReal)
    = transpose S512x512 [1, 0] (m ((c : Thread nD τ).loc main_arg18)) transposes_S512x512_S512x512_1_0 := by
  dsimp only [V, hostOps0]; after_results

theorem V_main_v8 (c : Dev nD) : (V m c main_v8 : S512x512.Idx → EReal)
    = transpose S512x512 [1, 0] (m ((c : Thread nD τ).loc main_arg20)) transposes_S512x512_S512x512_1_0 := by
  dsimp only [V, hostOps0]; after_results

theorem V_main_v10 (c : Dev nD) : (V m c main_v10 : S512x512.Idx → EReal)
    = transpose S512x512 [1, 0] (m ((c : Thread nD τ).loc main_arg23)) transposes_S512x512_S512x512_1_0 := by
  dsimp only [V, hostOps0]; after_results

theorem V_main_v6 (c : Dev nD) : (V m c main_v6 : S1x512.Idx → EReal)
    = transpose S1x512 [1, 0] (m ((c : Thread nD τ).loc main_arg16)) transposes_S512x1_S1x512_1_0 := by
  dsimp only [V, hostOps0]; after_results

theorem V_main_v9 (c : Dev nD) : (V m c main_v9 : S1x512.Idx → EReal)
    = transpose S1x512 [1, 0] (m ((c : Thread nD τ).loc main_arg22)) transposes_S512x1_S1x512_1_0 := by
  dsimp only [V, hostOps0]; after_results

theorem V_main_v11 (c : Dev nD) : (V m c main_v11 : S1x512.Idx → EReal)
    = transpose S1x512 [1, 0] (m ((c : Thread nD τ).loc main_arg25)) transposes_S512x1_S1x512_1_0 := by
  dsimp only [V, hostOps0]; after_results

/-! ## The printed index maps, decided over the sixteen points -/

/-- The four batch windows and the two result windows step one block of 512 rows per point. -/
theorem idx_stream : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_26.index t (0 : Fin 2) = t.val ∧ win0_26.index t (1 : Fin 2) = 0)
    ∧ (win0_27.index t (0 : Fin 2) = t.val ∧ win0_27.index t (1 : Fin 2) = 0) :=
  (by decide +kernel : ∀ t : Fin grid0.N, _)

theorem idx_w4 : ∀ t : Fin cfg0.N, win0_4.index t (0 : Fin 2) = 0 ∧ win0_4.index t (1 : Fin 2) = 0 :=
  (by decide +kernel : ∀ t : Fin grid0.N, _)

theorem idx_w6 : ∀ t : Fin cfg0.N, win0_6.index t (0 : Fin 2) = 0 ∧ win0_6.index t (1 : Fin 2) = 0 :=
  (by decide +kernel : ∀ t : Fin grid0.N, _)

theorem idx_w8 : ∀ t : Fin cfg0.N, win0_8.index t (0 : Fin 2) = 0 ∧ win0_8.index t (1 : Fin 2) = 0 :=
  (by decide +kernel : ∀ t : Fin grid0.N, _)

theorem idx_w10 : ∀ t : Fin cfg0.N, win0_10.index t (0 : Fin 2) = 0 ∧ win0_10.index t (1 : Fin 2) = 0 :=
  (by decide +kernel : ∀ t : Fin grid0.N, _)

theorem idx_w12 : ∀ t : Fin cfg0.N, win0_12.index t (0 : Fin 2) = 0 ∧ win0_12.index t (1 : Fin 2) = 0 :=
  (by decide +kernel : ∀ t : Fin grid0.N, _)

theorem idx_w14 : ∀ t : Fin cfg0.N, win0_14.index t (0 : Fin 2) = 0 ∧ win0_14.index t (1 : Fin 2) = 0 :=
  (by decide +kernel : ∀ t : Fin grid0.N, _)

theorem idx_w16 : ∀ t : Fin cfg0.N, win0_16.index t (0 : Fin 2) = 0 ∧ win0_16.index t (1 : Fin 2) = 0 :=
  (by decide +kernel : ∀ t : Fin grid0.N, _)

theorem idx_w18 : ∀ t : Fin cfg0.N, win0_18.index t (0 : Fin 2) = 0 ∧ win0_18.index t (1 : Fin 2) = 0 :=
  (by decide +kernel : ∀ t : Fin grid0.N, _)

theorem idx_w20 : ∀ t : Fin cfg0.N, win0_20.index t (0 : Fin 2) = 0 ∧ win0_20.index t (1 : Fin 2) = 0 :=
  (by decide +kernel : ∀ t : Fin grid0.N, _)

theorem idx_w22 : ∀ t : Fin cfg0.N, win0_22.index t (0 : Fin 2) = 0 ∧ win0_22.index t (1 : Fin 2) = 0 :=
  (by decide +kernel : ∀ t : Fin grid0.N, _)

theorem idx_w23 : ∀ t : Fin cfg0.N, win0_23.index t (0 : Fin 2) = 0 ∧ win0_23.index t (1 : Fin 2) = 0 :=
  (by decide +kernel : ∀ t : Fin grid0.N, _)

theorem idx_w25 : ∀ t : Fin cfg0.N, win0_25.index t (0 : Fin 2) = 0 ∧ win0_25.index t (1 : Fin 2) = 0 :=
  (by decide +kernel : ∀ t : Fin grid0.N, _)

theorem idx_w5 : ∀ t : Fin cfg0.N, win0_5.index t (0 : Fin 1) = 0 :=
  (by decide +kernel : ∀ t : Fin grid0.N, _)

theorem idx_w7 : ∀ t : Fin cfg0.N, win0_7.index t (0 : Fin 1) = 0 :=
  (by decide +kernel : ∀ t : Fin grid0.N, _)

theorem idx_w9 : ∀ t : Fin cfg0.N, win0_9.index t (0 : Fin 1) = 0 :=
  (by decide +kernel : ∀ t : Fin grid0.N, _)

theorem idx_w11 : ∀ t : Fin cfg0.N, win0_11.index t (0 : Fin 1) = 0 :=
  (by decide +kernel : ∀ t : Fin grid0.N, _)

theorem idx_w13 : ∀ t : Fin cfg0.N, win0_13.index t (0 : Fin 1) = 0 :=
  (by decide +kernel : ∀ t : Fin grid0.N, _)

theorem idx_w15 : ∀ t : Fin cfg0.N, win0_15.index t (0 : Fin 1) = 0 :=
  (by decide +kernel : ∀ t : Fin grid0.N, _)

theorem idx_w17 : ∀ t : Fin cfg0.N, win0_17.index t (0 : Fin 1) = 0 :=
  (by decide +kernel : ∀ t : Fin grid0.N, _)

theorem idx_w19 : ∀ t : Fin cfg0.N, win0_19.index t (0 : Fin 1) = 0 :=
  (by decide +kernel : ∀ t : Fin grid0.N, _)

theorem idx_w21 : ∀ t : Fin cfg0.N, win0_21.index t (0 : Fin 1) = 0 :=
  (by decide +kernel : ∀ t : Fin grid0.N, _)

theorem idx_w24 : ∀ t : Fin cfg0.N, win0_24.index t (0 : Fin 1) = 0 :=
  (by decide +kernel : ∀ t : Fin grid0.N, _)

/-! ## Each window's block at a point, read at an entry -/

/-- The batch row that row p of point t's blocks holds. -/
def rowAt (t : Fin cfg0.N) (p : Fin 512) : Fin 8192 :=
  ⟨t.val * 512 + p.val, by have ht : t.val < 16 := t.isLt; have hp := p.isLt; omega⟩

theorem blk0_apply (c : Dev nD) (t : Fin cfg0.N) (p k : Fin 512) :
    iblk m c 0 t (ix2 p k) = (m ((c : Thread nD τ).loc main_arg0)) (ix2 (rowAt t p) k) := by
  show V m c main_arg0 (((cfg0.win 0).blk t).view.emb (ix2 p k)) = _
  rw [V_main_arg0]
  refine congrArg _ (funext fun a => Fin.ext ?_)
  obtain ⟨⟨e00, e01⟩, ⟨e10, e11⟩, ⟨e20, e21⟩, ⟨e30, e31⟩, -, -⟩ := idx_stream t
  match a with
  | ⟨0, _⟩ => show win0_0.index t (0 : Fin 2) * 512 + 1 * p.val = t.val * 512 + p.val; omega
  | ⟨1, _⟩ => show win0_0.index t (1 : Fin 2) * 512 + 1 * k.val = k.val; omega

theorem blk1_apply (c : Dev nD) (t : Fin cfg0.N) (p : Fin 512) :
    iblk m c 1 t (ix2 p (0 : Fin 1)) = (m ((c : Thread nD τ).loc main_arg1)) (ix2 (rowAt t p) (0 : Fin 1)) := by
  show V m c main_arg1 (((cfg0.win 1).blk t).view.emb (ix2 p (0 : Fin 1))) = _
  rw [V_main_arg1]
  refine congrArg _ (funext fun a => Fin.ext ?_)
  obtain ⟨-, ⟨e10, e11⟩, -⟩ := idx_stream t
  match a with
  | ⟨0, _⟩ => show win0_1.index t (0 : Fin 2) * 512 + 1 * p.val = t.val * 512 + p.val; omega
  | ⟨1, _⟩ => show win0_1.index t (1 : Fin 2) * 1 + 1 * 0 = 0; omega

theorem blk2_apply (c : Dev nD) (t : Fin cfg0.N) (p k : Fin 512) :
    iblk m c 2 t (ix2 p k) = (m ((c : Thread nD τ).loc main_arg2)) (ix2 (rowAt t p) k) := by
  show V m c main_arg2 (((cfg0.win 2).blk t).view.emb (ix2 p k)) = _
  rw [V_main_arg2]
  refine congrArg _ (funext fun a => Fin.ext ?_)
  obtain ⟨⟨e00, e01⟩, ⟨e10, e11⟩, ⟨e20, e21⟩, ⟨e30, e31⟩, -, -⟩ := idx_stream t
  match a with
  | ⟨0, _⟩ => show win0_2.index t (0 : Fin 2) * 512 + 1 * p.val = t.val * 512 + p.val; omega
  | ⟨1, _⟩ => show win0_2.index t (1 : Fin 2) * 512 + 1 * k.val = k.val; omega

theorem blk3_apply (c : Dev nD) (t : Fin cfg0.N) (p k : Fin 512) :
    iblk m c 3 t (ix2 p k) = (m ((c : Thread nD τ).loc main_arg3)) (ix2 (rowAt t p) k) := by
  show V m c main_arg3 (((cfg0.win 3).blk t).view.emb (ix2 p k)) = _
  rw [V_main_arg3]
  refine congrArg _ (funext fun a => Fin.ext ?_)
  obtain ⟨⟨e00, e01⟩, ⟨e10, e11⟩, ⟨e20, e21⟩, ⟨e30, e31⟩, -, -⟩ := idx_stream t
  match a with
  | ⟨0, _⟩ => show win0_3.index t (0 : Fin 2) * 512 + 1 * p.val = t.val * 512 + p.val; omega
  | ⟨1, _⟩ => show win0_3.index t (1 : Fin 2) * 512 + 1 * k.val = k.val; omega

theorem blk4_apply (c : Dev nD) (t : Fin cfg0.N) (k h : Fin 512) :
    iblk m c 4 t (ix2 k h) = (m ((c : Thread nD τ).loc main_arg4)) (ix2 h k) := by
  show V m c main_v0 (((cfg0.win 4).blk t).view.emb (ix2 k h)) = _
  have e : ((cfg0.win 4).blk t).view.emb (ix2 k h) = ix2 k h := funext fun a => Fin.ext (by
    obtain ⟨e0, e1⟩ := idx_w4 t
    match a with
    | ⟨0, _⟩ => show win0_4.index t (0 : Fin 2) * 512 + 1 * k.val = k.val; omega
    | ⟨1, _⟩ => show win0_4.index t (1 : Fin 2) * 512 + 1 * h.val = h.val; omega)
  rw [e, V_main_v0]
  exact transpose_ix2_apply _ _ k h

theorem blk5_apply (c : Dev nD) (t : Fin cfg0.N) (h : Fin 512) :
    iblk m c 5 t (ix1 h) = (m ((c : Thread nD τ).loc main_arg5)) (ix1 h) := by
  show V m c main_arg5 (((cfg0.win 5).blk t).view.emb (ix1 h)) = _
  rw [V_main_arg5]
  refine congrArg _ (funext fun a => Fin.ext ?_)
  have e0 := idx_w5 t
  match a with
  | ⟨0, _⟩ => show win0_5.index t (0 : Fin 1) * 512 + 1 * h.val = h.val; omega

theorem blk6_apply (c : Dev nD) (t : Fin cfg0.N) (k h : Fin 512) :
    iblk m c 6 t (ix2 k h) = (m ((c : Thread nD τ).loc main_arg6)) (ix2 h k) := by
  show V m c main_v1 (((cfg0.win 6).blk t).view.emb (ix2 k h)) = _
  have e : ((cfg0.win 6).blk t).view.emb (ix2 k h) = ix2 k h := funext fun a => Fin.ext (by
    obtain ⟨e0, e1⟩ := idx_w6 t
    match a with
    | ⟨0, _⟩ => show win0_6.index t (0 : Fin 2) * 512 + 1 * k.val = k.val; omega
    | ⟨1, _⟩ => show win0_6.index t (1 : Fin 2) * 512 + 1 * h.val = h.val; omega)
  rw [e, V_main_v1]
  exact transpose_ix2_apply _ _ k h

theorem blk7_apply (c : Dev nD) (t : Fin cfg0.N) (h : Fin 512) :
    iblk m c 7 t (ix1 h) = (m ((c : Thread nD τ).loc main_arg7)) (ix1 h) := by
  show V m c main_arg7 (((cfg0.win 7).blk t).view.emb (ix1 h)) = _
  rw [V_main_arg7]
  refine congrArg _ (funext fun a => Fin.ext ?_)
  have e0 := idx_w7 t
  match a with
  | ⟨0, _⟩ => show win0_7.index t (0 : Fin 1) * 512 + 1 * h.val = h.val; omega

theorem blk8_apply (c : Dev nD) (t : Fin cfg0.N) (k h : Fin 512) :
    iblk m c 8 t (ix2 k h) = (m ((c : Thread nD τ).loc main_arg8)) (ix2 h k) := by
  show V m c main_v2 (((cfg0.win 8).blk t).view.emb (ix2 k h)) = _
  have e : ((cfg0.win 8).blk t).view.emb (ix2 k h) = ix2 k h := funext fun a => Fin.ext (by
    obtain ⟨e0, e1⟩ := idx_w8 t
    match a with
    | ⟨0, _⟩ => show win0_8.index t (0 : Fin 2) * 512 + 1 * k.val = k.val; omega
    | ⟨1, _⟩ => show win0_8.index t (1 : Fin 2) * 512 + 1 * h.val = h.val; omega)
  rw [e, V_main_v2]
  exact transpose_ix2_apply _ _ k h

theorem blk9_apply (c : Dev nD) (t : Fin cfg0.N) (h : Fin 512) :
    iblk m c 9 t (ix1 h) = (m ((c : Thread nD τ).loc main_arg9)) (ix1 h) := by
  show V m c main_arg9 (((cfg0.win 9).blk t).view.emb (ix1 h)) = _
  rw [V_main_arg9]
  refine congrArg _ (funext fun a => Fin.ext ?_)
  have e0 := idx_w9 t
  match a with
  | ⟨0, _⟩ => show win0_9.index t (0 : Fin 1) * 512 + 1 * h.val = h.val; omega

theorem blk10_apply (c : Dev nD) (t : Fin cfg0.N) (k h : Fin 512) :
    iblk m c 10 t (ix2 k h) = (m ((c : Thread nD τ).loc main_arg10)) (ix2 h k) := by
  show V m c main_v3 (((cfg0.win 10).blk t).view.emb (ix2 k h)) = _
  have e : ((cfg0.win 10).blk t).view.emb (ix2 k h) = ix2 k h := funext fun a => Fin.ext (by
    obtain ⟨e0, e1⟩ := idx_w10 t
    match a with
    | ⟨0, _⟩ => show win0_10.index t (0 : Fin 2) * 512 + 1 * k.val = k.val; omega
    | ⟨1, _⟩ => show win0_10.index t (1 : Fin 2) * 512 + 1 * h.val = h.val; omega)
  rw [e, V_main_v3]
  exact transpose_ix2_apply _ _ k h

theorem blk11_apply (c : Dev nD) (t : Fin cfg0.N) (h : Fin 512) :
    iblk m c 11 t (ix1 h) = (m ((c : Thread nD τ).loc main_arg11)) (ix1 h) := by
  show V m c main_arg11 (((cfg0.win 11).blk t).view.emb (ix1 h)) = _
  rw [V_main_arg11]
  refine congrArg _ (funext fun a => Fin.ext ?_)
  have e0 := idx_w11 t
  match a with
  | ⟨0, _⟩ => show win0_11.index t (0 : Fin 1) * 512 + 1 * h.val = h.val; omega

theorem blk12_apply (c : Dev nD) (t : Fin cfg0.N) (k h : Fin 512) :
    iblk m c 12 t (ix2 k h) = (m ((c : Thread nD τ).loc main_arg12)) (ix2 h k) := by
  show V m c main_v4 (((cfg0.win 12).blk t).view.emb (ix2 k h)) = _
  have e : ((cfg0.win 12).blk t).view.emb (ix2 k h) = ix2 k h := funext fun a => Fin.ext (by
    obtain ⟨e0, e1⟩ := idx_w12 t
    match a with
    | ⟨0, _⟩ => show win0_12.index t (0 : Fin 2) * 512 + 1 * k.val = k.val; omega
    | ⟨1, _⟩ => show win0_12.index t (1 : Fin 2) * 512 + 1 * h.val = h.val; omega)
  rw [e, V_main_v4]
  exact transpose_ix2_apply _ _ k h

theorem blk13_apply (c : Dev nD) (t : Fin cfg0.N) (h : Fin 512) :
    iblk m c 13 t (ix1 h) = (m ((c : Thread nD τ).loc main_arg13)) (ix1 h) := by
  show V m c main_arg13 (((cfg0.win 13).blk t).view.emb (ix1 h)) = _
  rw [V_main_arg13]
  refine congrArg _ (funext fun a => Fin.ext ?_)
  have e0 := idx_w13 t
  match a with
  | ⟨0, _⟩ => show win0_13.index t (0 : Fin 1) * 512 + 1 * h.val = h.val; omega

theorem blk14_apply (c : Dev nD) (t : Fin cfg0.N) (k h : Fin 512) :
    iblk m c 14 t (ix2 k h) = (m ((c : Thread nD τ).loc main_arg14)) (ix2 h k) := by
  show V m c main_v5 (((cfg0.win 14).blk t).view.emb (ix2 k h)) = _
  have e : ((cfg0.win 14).blk t).view.emb (ix2 k h) = ix2 k h := funext fun a => Fin.ext (by
    obtain ⟨e0, e1⟩ := idx_w14 t
    match a with
    | ⟨0, _⟩ => show win0_14.index t (0 : Fin 2) * 512 + 1 * k.val = k.val; omega
    | ⟨1, _⟩ => show win0_14.index t (1 : Fin 2) * 512 + 1 * h.val = h.val; omega)
  rw [e, V_main_v5]
  exact transpose_ix2_apply _ _ k h

theorem blk15_apply (c : Dev nD) (t : Fin cfg0.N) (h : Fin 512) :
    iblk m c 15 t (ix1 h) = (m ((c : Thread nD τ).loc main_arg15)) (ix1 h) := by
  show V m c main_arg15 (((cfg0.win 15).blk t).view.emb (ix1 h)) = _
  rw [V_main_arg15]
  refine congrArg _ (funext fun a => Fin.ext ?_)
  have e0 := idx_w15 t
  match a with
  | ⟨0, _⟩ => show win0_15.index t (0 : Fin 1) * 512 + 1 * h.val = h.val; omega

theorem blk16_apply (c : Dev nD) (t : Fin cfg0.N) (h : Fin 512) :
    iblk m c 16 t (ix2 (0 : Fin 1) h) = (m ((c : Thread nD τ).loc main_arg16)) (ix2 h (0 : Fin 1)) := by
  show V m c main_v6 (((cfg0.win 16).blk t).view.emb (ix2 (0 : Fin 1) h)) = _
  have e : ((cfg0.win 16).blk t).view.emb (ix2 (0 : Fin 1) h) = ix2 (0 : Fin 1) h := funext fun a => Fin.ext (by
    obtain ⟨e0, e1⟩ := idx_w16 t
    match a with
    | ⟨0, _⟩ => show win0_16.index t (0 : Fin 2) * 1 + 1 * 0 = 0; omega
    | ⟨1, _⟩ => show win0_16.index t (1 : Fin 2) * 512 + 1 * h.val = h.val; omega)
  rw [e, V_main_v6]
  exact transpose_ix2_apply _ _ (0 : Fin 1) h

theorem blk17_apply (c : Dev nD) (t : Fin cfg0.N) (h : Fin 512) :
    iblk m c 17 t (ix1 h) = (m ((c : Thread nD τ).loc main_arg17)) (ix1 h) := by
  show V m c main_arg17 (((cfg0.win 17).blk t).view.emb (ix1 h)) = _
  rw [V_main_arg17]
  refine congrArg _ (funext fun a => Fin.ext ?_)
  have e0 := idx_w17 t
  match a with
  | ⟨0, _⟩ => show win0_17.index t (0 : Fin 1) * 512 + 1 * h.val = h.val; omega

theorem blk18_apply (c : Dev nD) (t : Fin cfg0.N) (k h : Fin 512) :
    iblk m c 18 t (ix2 k h) = (m ((c : Thread nD τ).loc main_arg18)) (ix2 h k) := by
  show V m c main_v7 (((cfg0.win 18).blk t).view.emb (ix2 k h)) = _
  have e : ((cfg0.win 18).blk t).view.emb (ix2 k h) = ix2 k h := funext fun a => Fin.ext (by
    obtain ⟨e0, e1⟩ := idx_w18 t
    match a with
    | ⟨0, _⟩ => show win0_18.index t (0 : Fin 2) * 512 + 1 * k.val = k.val; omega
    | ⟨1, _⟩ => show win0_18.index t (1 : Fin 2) * 512 + 1 * h.val = h.val; omega)
  rw [e, V_main_v7]
  exact transpose_ix2_apply _ _ k h

theorem blk19_apply (c : Dev nD) (t : Fin cfg0.N) (h : Fin 512) :
    iblk m c 19 t (ix1 h) = (m ((c : Thread nD τ).loc main_arg19)) (ix1 h) := by
  show V m c main_arg19 (((cfg0.win 19).blk t).view.emb (ix1 h)) = _
  rw [V_main_arg19]
  refine congrArg _ (funext fun a => Fin.ext ?_)
  have e0 := idx_w19 t
  match a with
  | ⟨0, _⟩ => show win0_19.index t (0 : Fin 1) * 512 + 1 * h.val = h.val; omega

theorem blk20_apply (c : Dev nD) (t : Fin cfg0.N) (k h : Fin 512) :
    iblk m c 20 t (ix2 k h) = (m ((c : Thread nD τ).loc main_arg20)) (ix2 h k) := by
  show V m c main_v8 (((cfg0.win 20).blk t).view.emb (ix2 k h)) = _
  have e : ((cfg0.win 20).blk t).view.emb (ix2 k h) = ix2 k h := funext fun a => Fin.ext (by
    obtain ⟨e0, e1⟩ := idx_w20 t
    match a with
    | ⟨0, _⟩ => show win0_20.index t (0 : Fin 2) * 512 + 1 * k.val = k.val; omega
    | ⟨1, _⟩ => show win0_20.index t (1 : Fin 2) * 512 + 1 * h.val = h.val; omega)
  rw [e, V_main_v8]
  exact transpose_ix2_apply _ _ k h

theorem blk21_apply (c : Dev nD) (t : Fin cfg0.N) (h : Fin 512) :
    iblk m c 21 t (ix1 h) = (m ((c : Thread nD τ).loc main_arg21)) (ix1 h) := by
  show V m c main_arg21 (((cfg0.win 21).blk t).view.emb (ix1 h)) = _
  rw [V_main_arg21]
  refine congrArg _ (funext fun a => Fin.ext ?_)
  have e0 := idx_w21 t
  match a with
  | ⟨0, _⟩ => show win0_21.index t (0 : Fin 1) * 512 + 1 * h.val = h.val; omega

theorem blk22_apply (c : Dev nD) (t : Fin cfg0.N) (h : Fin 512) :
    iblk m c 22 t (ix2 (0 : Fin 1) h) = (m ((c : Thread nD τ).loc main_arg22)) (ix2 h (0 : Fin 1)) := by
  show V m c main_v9 (((cfg0.win 22).blk t).view.emb (ix2 (0 : Fin 1) h)) = _
  have e : ((cfg0.win 22).blk t).view.emb (ix2 (0 : Fin 1) h) = ix2 (0 : Fin 1) h := funext fun a => Fin.ext (by
    obtain ⟨e0, e1⟩ := idx_w22 t
    match a with
    | ⟨0, _⟩ => show win0_22.index t (0 : Fin 2) * 1 + 1 * 0 = 0; omega
    | ⟨1, _⟩ => show win0_22.index t (1 : Fin 2) * 512 + 1 * h.val = h.val; omega)
  rw [e, V_main_v9]
  exact transpose_ix2_apply _ _ (0 : Fin 1) h

theorem blk23_apply (c : Dev nD) (t : Fin cfg0.N) (k h : Fin 512) :
    iblk m c 23 t (ix2 k h) = (m ((c : Thread nD τ).loc main_arg23)) (ix2 h k) := by
  show V m c main_v10 (((cfg0.win 23).blk t).view.emb (ix2 k h)) = _
  have e : ((cfg0.win 23).blk t).view.emb (ix2 k h) = ix2 k h := funext fun a => Fin.ext (by
    obtain ⟨e0, e1⟩ := idx_w23 t
    match a with
    | ⟨0, _⟩ => show win0_23.index t (0 : Fin 2) * 512 + 1 * k.val = k.val; omega
    | ⟨1, _⟩ => show win0_23.index t (1 : Fin 2) * 512 + 1 * h.val = h.val; omega)
  rw [e, V_main_v10]
  exact transpose_ix2_apply _ _ k h

theorem blk24_apply (c : Dev nD) (t : Fin cfg0.N) (h : Fin 512) :
    iblk m c 24 t (ix1 h) = (m ((c : Thread nD τ).loc main_arg24)) (ix1 h) := by
  show V m c main_arg24 (((cfg0.win 24).blk t).view.emb (ix1 h)) = _
  rw [V_main_arg24]
  refine congrArg _ (funext fun a => Fin.ext ?_)
  have e0 := idx_w24 t
  match a with
  | ⟨0, _⟩ => show win0_24.index t (0 : Fin 1) * 512 + 1 * h.val = h.val; omega

theorem blk25_apply (c : Dev nD) (t : Fin cfg0.N) (h : Fin 512) :
    iblk m c 25 t (ix2 (0 : Fin 1) h) = (m ((c : Thread nD τ).loc main_arg25)) (ix2 h (0 : Fin 1)) := by
  show V m c main_v11 (((cfg0.win 25).blk t).view.emb (ix2 (0 : Fin 1) h)) = _
  have e : ((cfg0.win 25).blk t).view.emb (ix2 (0 : Fin 1) h) = ix2 (0 : Fin 1) h := funext fun a => Fin.ext (by
    obtain ⟨e0, e1⟩ := idx_w25 t
    match a with
    | ⟨0, _⟩ => show win0_25.index t (0 : Fin 2) * 1 + 1 * 0 = 0; omega
    | ⟨1, _⟩ => show win0_25.index t (1 : Fin 2) * 512 + 1 * h.val = h.val; omega)
  rw [e, V_main_v11]
  exact transpose_ix2_apply _ _ (0 : Fin 1) h

/-- The staged weight blocks are the cell's parameters as the arguments store them. -/
theorem blockWeights_eq (c : Dev nD) (t : Fin cfg0.N) :
    blockWeights (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) = argWeights (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) := by
  simp only [blockWeights, argWeights, blk4_apply, blk5_apply, blk6_apply, blk7_apply, blk8_apply, blk9_apply, blk10_apply, blk11_apply, blk12_apply, blk13_apply, blk14_apply, blk15_apply, blk16_apply, blk17_apply, blk18_apply, blk19_apply, blk20_apply, blk21_apply, blk22_apply, blk23_apply, blk24_apply, blk25_apply]

/-- Row p of point t's batch blocks is batch row 512 t + p. -/
theorem blockRow_eq (c : Dev nD) (t : Fin cfg0.N) (p : Fin 512) :
    blockRow (iblk m c 0 t) (iblk m c 1 t) (iblk m c 2 t) (iblk m c 3 t) p = argRow (m ((c : Thread nD τ).loc main_arg0)) (m ((c : Thread nD τ).loc main_arg1)) (m ((c : Thread nD τ).loc main_arg2)) (m ((c : Thread nD τ).loc main_arg3)) (rowAt t p) := by
  simp only [blockRow, argRow, blk0_apply, blk1_apply, blk2_apply, blk3_apply]

/-! ## What a point writes back -/

theorem hz : (![0, 0] : Fin 2 → Nat) = fun _ => 0 := funext fun a => by fin_cases a <;> rfl
theorem hz1 : (![0] : Fin 1 → Nat) = fun _ => 0 := funext fun a => by fin_cases a <;> rfl

/-- Entry (p, q) of a result block at point t is entry (512 t + p, q) of the result array. -/
theorem emb26 (t : Fin cfg0.N) (p q : Fin 512) : ((cfg0.win 26).blk t).view.emb (ix2 p q) = ix2 (rowAt t p) q :=
  funext fun a => Fin.ext (by
    obtain ⟨-, -, -, -, ⟨e0, e1⟩, -⟩ := idx_stream t
    match a with
    | ⟨0, _⟩ => show win0_26.index t (0 : Fin 2) * 512 + 1 * p.val = t.val * 512 + p.val; omega
    | ⟨1, _⟩ => show win0_26.index t (1 : Fin 2) * 512 + 1 * q.val = q.val; omega)

theorem emb27 (t : Fin cfg0.N) (p q : Fin 512) : ((cfg0.win 27).blk t).view.emb (ix2 p q) = ix2 (rowAt t p) q :=
  funext fun a => Fin.ext (by
    obtain ⟨-, -, -, -, -, ⟨e0, e1⟩⟩ := idx_stream t
    match a with
    | ⟨0, _⟩ => show win0_27.index t (0 : Fin 2) * 512 + 1 * p.val = t.val * 512 + p.val; omega
    | ⟨1, _⟩ => show win0_27.index t (1 : Fin 2) * 512 + 1 * q.val = q.val; omega)

/-- Point t writes back block t of the new hidden state. -/
theorem flushed26_eq (c : Dev nD) (t : Fin cfg0.N) :
    (dats m 0 c).flushed 26 t = ((cfg0.win 26).blk t).view.read (Elt Ideal) (hmArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))) := by
  rw [flushed26]
  unfold out0_26
  rw [View.canon_unit_zero hz]
  simp only [View.ld_unit_zero (S := S512x512) hz, View.ld_unit_zero (S := S512x1) hz, View.ld_unit_zero (S := S1x512) hz, View.ld_unit_zero (S := S512) hz1]
  funext j
  obtain ⟨p, q, rfl⟩ : ∃ (p q : Fin 512), j = ix2 p q := ⟨j 0, j 1, eq_ix2 (n0 := 512) (n1 := 512) j⟩
  show (k0_pay1 (k0_pay9 (k0_pay6 (iblk m c 0 t) (iblk m c 2 t) (iblk m c 8 t) (iblk m c 9 t) (iblk m c 10 t) (iblk m c 11 t)) (k0_pay7 (iblk m c 2 t) (k0_pay2 (iblk m c 0 t) (iblk m c 1 t) (iblk m c 20 t) (iblk m c 21 t) (iblk m c 22 t)) (k0_pay4 (iblk m c 0 t)) (iblk m c 4 t) (iblk m c 5 t) (iblk m c 6 t) (iblk m c 7 t)) (k0_pay8 (iblk m c 2 t) (iblk m c 3 t) (k0_pay2 (iblk m c 0 t) (iblk m c 1 t) (iblk m c 20 t) (iblk m c 21 t) (iblk m c 22 t)) (k0_pay4 (iblk m c 0 t)) (iblk m c 4 t) (iblk m c 5 t) (iblk m c 6 t) (iblk m c 7 t))) (k0_pay11 (iblk m c 0 t) (iblk m c 1 t) (iblk m c 2 t) (iblk m c 12 t) (iblk m c 13 t) (iblk m c 16 t) (iblk m c 17 t) (iblk m c 14 t) (iblk m c 15 t)) (k0_pay12 (k0_pay6 (iblk m c 0 t) (iblk m c 2 t) (iblk m c 8 t) (iblk m c 9 t) (iblk m c 10 t) (iblk m c 11 t)) (k0_pay7 (iblk m c 2 t) (k0_pay2 (iblk m c 0 t) (iblk m c 1 t) (iblk m c 20 t) (iblk m c 21 t) (iblk m c 22 t)) (k0_pay4 (iblk m c 0 t)) (iblk m c 4 t) (iblk m c 5 t) (iblk m c 6 t) (iblk m c 7 t)) (k0_pay8 (iblk m c 2 t) (iblk m c 3 t) (k0_pay2 (iblk m c 0 t) (iblk m c 1 t) (iblk m c 20 t) (iblk m c 21 t) (iblk m c 22 t)) (k0_pay4 (iblk m c 0 t)) (iblk m c 4 t) (iblk m c 5 t) (iblk m c 6 t) (iblk m c 7 t)) (iblk m c 18 t)) (k0_pay13 (iblk m c 19 t))) (ix2 p q) = hmArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (((cfg0.win 26).blk t).view.emb (ix2 p q))
  rw [body_hm (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) p q, blockWeights_eq m c t, blockRow_eq m c t p, emb26 t p q]
  rfl

/-- Point t writes back block t of the new cell state. -/
theorem flushed27_eq (c : Dev nD) (t : Fin cfg0.N) :
    (dats m 0 c).flushed 27 t = ((cfg0.win 27).blk t).view.read (Elt Ideal) (cmArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))) := by
  rw [flushed27]
  unfold out0_27
  rw [View.canon_unit_zero hz]
  simp only [View.ld_unit_zero (S := S512x512) hz, View.ld_unit_zero (S := S512x1) hz, View.ld_unit_zero (S := S1x512) hz, View.ld_unit_zero (S := S512) hz1]
  funext j
  obtain ⟨p, q, rfl⟩ : ∃ (p q : Fin 512), j = ix2 p q := ⟨j 0, j 1, eq_ix2 (n0 := 512) (n1 := 512) j⟩
  show (k0_pay10 (iblk m c 3 t) (k0_pay3 (iblk m c 0 t) (iblk m c 1 t) (iblk m c 23 t) (iblk m c 24 t) (iblk m c 25 t)) (k0_pay5 (iblk m c 2 t) (k0_pay4 (iblk m c 0 t)) (iblk m c 4 t) (iblk m c 5 t) (iblk m c 6 t) (iblk m c 7 t)) (k0_pay6 (iblk m c 0 t) (iblk m c 2 t) (iblk m c 8 t) (iblk m c 9 t) (iblk m c 10 t) (iblk m c 11 t))) (ix2 p q) = cmArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (((cfg0.win 27).blk t).view.emb (ix2 p q))
  rw [body_cm (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) p q, blockWeights_eq m c t, blockRow_eq m c t p, emb27 t p q]
  rfl

/-! ## The sixteen blocks tile the results -/

theorem mem_blk26 (t : Fin cfg0.N) (i : S8192x512.Idx) :
    i ∈ ((cfg0.win 26).blk t).view.set ↔ ∀ a : Fin 2, win0_26.index t a * S512x512.size a ≤ (i a).val ∧ (i a).val < win0_26.index t a * S512x512.size a + S512x512.size a := by
  show i ∈ ((View.whole main_v12_0).slice (win0_26.rect t)).set ↔ _
  rw [View.set_slice_whole, Rect.mem_set_unit]
  exact Iff.rfl

theorem mem_blk27 (t : Fin cfg0.N) (i : S8192x512.Idx) :
    i ∈ ((cfg0.win 27).blk t).view.set ↔ ∀ a : Fin 2, win0_27.index t a * S512x512.size a ≤ (i a).val ∧ (i a).val < win0_27.index t a * S512x512.size a + S512x512.size a := by
  show i ∈ ((View.whole main_v12_1).slice (win0_27.rect t)).set ↔ _
  rw [View.set_slice_whole, Rect.mem_set_unit]
  exact Iff.rfl

/-- Row r lies in the block of point r / 512. -/
theorem cover26 (i : S8192x512.Idx) : ∃ t : Fin cfg0.N, (cfg0.win 26).flush t = true ∧ i ∈ ((cfg0.win 26).blk t).view.set := by
  have hi0 : (i 0).val < 8192 := (i 0).isLt
  have hi1 : (i 1).val < 512 := (i 1).isLt
  obtain ⟨t, ht⟩ : ∃ t : Fin cfg0.N, t.val = (i 0).val / 512 := ⟨⟨(i 0).val / 512, by show (i 0).val / 512 < 16; omega⟩, rfl⟩
  refine ⟨t, flush0_26 t, ?_⟩
  rw [mem_blk26]
  obtain ⟨-, -, -, -, ⟨e0, e1⟩, -⟩ := idx_stream t
  intro a
  match a with
  | ⟨0, _⟩ => show win0_26.index t (0 : Fin 2) * 512 ≤ (i 0).val ∧ (i 0).val < win0_26.index t (0 : Fin 2) * 512 + 512; omega
  | ⟨1, _⟩ => show win0_26.index t (1 : Fin 2) * 512 ≤ (i 1).val ∧ (i 1).val < win0_26.index t (1 : Fin 2) * 512 + 512; omega

theorem cover27 (i : S8192x512.Idx) : ∃ t : Fin cfg0.N, (cfg0.win 27).flush t = true ∧ i ∈ ((cfg0.win 27).blk t).view.set := by
  have hi0 : (i 0).val < 8192 := (i 0).isLt
  have hi1 : (i 1).val < 512 := (i 1).isLt
  obtain ⟨t, ht⟩ : ∃ t : Fin cfg0.N, t.val = (i 0).val / 512 := ⟨⟨(i 0).val / 512, by show (i 0).val / 512 < 16; omega⟩, rfl⟩
  refine ⟨t, flush0_27 t, ?_⟩
  rw [mem_blk27]
  obtain ⟨-, -, -, -, -, ⟨e0, e1⟩⟩ := idx_stream t
  intro a
  match a with
  | ⟨0, _⟩ => show win0_27.index t (0 : Fin 2) * 512 ≤ (i 0).val ∧ (i 0).val < win0_27.index t (0 : Fin 2) * 512 + 512; omega
  | ⟨1, _⟩ => show win0_27.index t (1 : Fin 2) * 512 ≤ (i 1).val ∧ (i 1).val < win0_27.index t (1 : Fin 2) * 512 + 512; omega

/-! ## The arrays after the run -/

theorem final26 (c : Dev nD) : (dats m 0 c).arrAt 26 cfg0.N = hmArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) :=
  (dats m 0 c).arrAt_eq_of_cover 26 (hmArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))) (fun t _ => flushed26_eq m c t) cover26

theorem final27 (c : Dev nD) : (dats m 0 c).arrAt 27 cfg0.N = cmArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) :=
  (dats m 0 c).arrAt_eq_of_cover 27 (cmArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))) (fun t _ => flushed27_eq m c t) cover27

/-- The kernel's run: it terminates with the two results at the cell's whole-array functions of the arguments, the
    arguments unchanged. -/
theorem run : θ_run defs (onTc (τ := τ) (main (F := Ideal))) ⟨m, fun _ => 0, ρ⟩ fun r => ∀ c : Dev nD,
      r.2.mem ((c : Thread nD τ).loc main_v12_0) = hmArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))
      ∧ r.2.mem ((c : Thread nD τ).loc main_v12_1) = cmArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25) :=
  (θ_run defs _ _).mono (fun r h c => ⟨(h c).1.trans (final26 m c), (h c).2.1.trans (final27 m c), (h c).2.2⟩)
    (run_blocks m ρ)

end Cert.KernelIdeal.CellValue

end
-- ==== Proof.RefValue.lean ====
/-
  The reference's two results, as the cell of Spec.lean applied row by row to the argument arrays.

  The reference computes every affine map as a host matrix product with the transposed weight plus a bias broadcast
  over the rows, the three time terms as products with a contracted axis of length one, and every sigmoid spelt out as
  1 / (1 + exp (-x)) with both ones written as the f32 word of 1.0. Read at entry (r, h): a product with the transposed
  weight is the sum over k of a[r, k] * W[h, k]; a contraction of length one is its single term dt[r] * W[h]; the spelt
  sigmoid is the cell's sigmoid. Composing these in the program's own order gives `hmArr` and `cmArr`.
-/
import proofs.«172006_j1331439862441_1_alg».proof.Proof.Gen.ReferenceIdeal.Read
import proofs.«172006_j1331439862441_1_alg».proof.Proof.Spec
import Idealize.ShloMosaic.Lib.ValueIdx
import Idealize.ShloMosaic.Lib.Pipeline.Value

noncomputable section

namespace Cert.ReferenceIdeal.CellValue

open Cert.ReferenceIdeal Cert.ReferenceIdeal.Gen Cert.ReferenceIdeal.Read
open Idealize.ShloMosaic Idealize.ShloMosaic.TcCoe Idealize.ShloMosaic.ValueIdx Cert.TimeLstm

/-! ## The reference's building blocks at an entry -/

/-- An affine map of the reference (the operand against the transposed weight, plus the bias laid over the rows) at
    entry (r, h): `lin` of row r against row h of the weight. Stated of the first such map's stages, which are these
    operations of ANY three operands. -/
theorem lin_at (a : (⟨S8192x512, .f32⟩ : BufTy).Contents (Elt Ideal)) (W : (⟨S512x512, .f32⟩ : BufTy).Contents (Elt Ideal)) (b : (⟨S512, .f32⟩ : BufTy).Contents (Elt Ideal)) (r : Fin 8192) (h : Fin 512) :
    val_main_v4 (F := Ideal) a W b (ix2 r h)
      = lin (fun k => a (ix2 r k)) (fun h k => W (ix2 h k)) (fun h => b (ix1 h)) h := by
  rw [val_main_v4_apply, val_main_v1_apply, val_main_v3_apply, val_main_v2_apply]
  simp only [val_main_v0_apply]
  have e1 : ∀ k : Fin 512, lidx_main_v1 (ix2 r h) k = ix2 r k := fun k => Shape.idx_ext₂ rfl rfl
  have e2 : ∀ k : Fin 512, idx_main_v0 (ridx_main_v1 (ix2 r h) k) = ix2 h k := fun k => Shape.idx_ext₂ rfl rfl
  have e3 : idx_main_v2 (idx_main_v3 (ix2 r h)) = ix1 h := funext fun a => match a with | ⟨0, _⟩ => rfl
  simp only [e1, e2, e3]
  rfl

/-- The elapsed time against a time weight: a contraction over one index is its single term dt[r] * W[h]. -/
theorem dt_at (dt : (⟨S8192x1, .f32⟩ : BufTy).Contents (Elt Ideal)) (W : (⟨S512x1, .f32⟩ : BufTy).Contents (Elt Ideal)) (r : Fin 8192) (h : Fin 512) :
    val_main_v6 (F := Ideal) dt W (ix2 r h) = dt (ix2 r (0 : Fin 1)) * W (ix2 h (0 : Fin 1)) := by
  rw [val_main_v6_apply, Fin.sum_univ_one, val_main_v5_apply]
  have e1 : lidx_main_v6 (ix2 r h) (0 : Fin 1) = ix2 r (0 : Fin 1) := Shape.idx_ext₂ rfl rfl
  have e2 : idx_main_v5 (ridx_main_v6 (ix2 r h) (0 : Fin 1)) = ix2 h (0 : Fin 1) := Shape.idx_ext₂ rfl rfl
  rw [e1, e2]

/-- A bias laid over the rows. -/
theorem bias_at (b : (⟨S512, .f32⟩ : BufTy).Contents (Elt Ideal)) (r : Fin 8192) (h : Fin 512) :
    val_main_v3 (F := Ideal) b (ix2 r h) = b (ix1 h) := by
  rw [val_main_v3_apply, val_main_v2_apply]
  exact congrArg b (funext fun a => match a with | ⟨0, _⟩ => rfl)

/-- The word of 1.0 laid over the whole array. -/
def hostOne : (⟨S8192x512, .f32⟩ : BufTy).Contents (Elt Ideal) :=
  broadcastInDim S8192x512 ![] bcast_S_S8192x512 (constant (F := Ideal) S_ .f32 0x3F800000#32)

theorem hostOne_apply (i : S8192x512.Idx) : hostOne i = one := rfl

/-- The reference's sigmoid, spelt out: 1 / (1 + exp (-X)). -/
def hostSg (X : (⟨S8192x512, .f32⟩ : BufTy).Contents (Elt Ideal)) : (⟨S8192x512, .f32⟩ : BufTy).Contents (Elt Ideal) :=
  Host.divf (F := Ideal) (φ := .f32) hostOne (addf (F := Ideal) (φ := .f32) hostOne (Host.exp (F := Ideal) (φ := .f32) (Host.negf (F := Ideal) (φ := .f32) X)))

theorem hostSg_apply (X : (⟨S8192x512, .f32⟩ : BufTy).Contents (Elt Ideal)) (i : S8192x512.Idx) : hostSg X i = sg (X i) := sg_spelt (X i)

theorem hostTanh_apply (X : (⟨S8192x512, .f32⟩ : BufTy).Contents (Elt Ideal)) (i : S8192x512.Idx) : Host.tanh (F := Ideal) (φ := .f32) X i = Ideal.tanh (X i) := rfl

/-! ## The reference's gates, regrouped -/

/-- A time gate. -/
def refTm (x0 : (⟨S8192x512, .f32⟩ : BufTy).Contents (Elt Ideal)) (x1 : (⟨S8192x1, .f32⟩ : BufTy).Contents (Elt Ideal)) (W : (⟨S512x512, .f32⟩ : BufTy).Contents (Elt Ideal)) (b : (⟨S512, .f32⟩ : BufTy).Contents (Elt Ideal)) (wt : (⟨S512x1, .f32⟩ : BufTy).Contents (Elt Ideal)) : (⟨S8192x512, .f32⟩ : BufTy).Contents (Elt Ideal) :=
  hostSg (addf (F := Ideal) (φ := .f32) (val_main_v4 (F := Ideal) x0 W b) (hostSg (val_main_v6 (F := Ideal) x1 wt)))

/-- The input gate. -/
def refIm (x0 x2 : (⟨S8192x512, .f32⟩ : BufTy).Contents (Elt Ideal)) (Wi : (⟨S512x512, .f32⟩ : BufTy).Contents (Elt Ideal)) (bi : (⟨S512, .f32⟩ : BufTy).Contents (Elt Ideal)) (Wh : (⟨S512x512, .f32⟩ : BufTy).Contents (Elt Ideal)) (bh : (⟨S512, .f32⟩ : BufTy).Contents (Elt Ideal)) : (⟨S8192x512, .f32⟩ : BufTy).Contents (Elt Ideal) :=
  hostSg (addf (F := Ideal) (φ := .f32) (val_main_v4 (F := Ideal) x0 Wi bi) (val_main_v4 (F := Ideal) x2 Wh bh))

/-- The candidate. -/
def refCand (x0 x2 : (⟨S8192x512, .f32⟩ : BufTy).Contents (Elt Ideal)) (Wi : (⟨S512x512, .f32⟩ : BufTy).Contents (Elt Ideal)) (bi : (⟨S512, .f32⟩ : BufTy).Contents (Elt Ideal)) (Wh : (⟨S512x512, .f32⟩ : BufTy).Contents (Elt Ideal)) (bh : (⟨S512, .f32⟩ : BufTy).Contents (Elt Ideal)) : (⟨S8192x512, .f32⟩ : BufTy).Contents (Elt Ideal) :=
  Host.tanh (F := Ideal) (φ := .f32) (addf (F := Ideal) (φ := .f32) (val_main_v4 (F := Ideal) x0 Wi bi) (val_main_v4 (F := Ideal) x2 Wh bh))

/-- The intermediate cell state. -/
def refCmt (x0 : (⟨S8192x512, .f32⟩ : BufTy).Contents (Elt Ideal)) (x1 : (⟨S8192x1, .f32⟩ : BufTy).Contents (Elt Ideal)) (x2 : (⟨S8192x512, .f32⟩ : BufTy).Contents (Elt Ideal)) (x3 : (⟨S8192x512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x20 : (⟨S512x512, .f32⟩ : BufTy).Contents (Elt Ideal)) (x21 : (⟨S512, .f32⟩ : BufTy).Contents (Elt Ideal)) (x22 : (⟨S512x1, .f32⟩ : BufTy).Contents (Elt Ideal)) : (⟨S8192x512, .f32⟩ : BufTy).Contents (Elt Ideal) :=
  addf (F := Ideal) (φ := .f32) (mulf (F := Ideal) (φ := .f32) (subf (F := Ideal) (φ := .f32) hostOne (mulf (F := Ideal) (φ := .f32) (refIm x0 x2 x4 x5 x6 x7) (refTm x0 x1 x20 x21 x22))) x3)
    (mulf (F := Ideal) (φ := .f32) (mulf (F := Ideal) (φ := .f32) (refIm x0 x2 x4 x5 x6 x7) (refTm x0 x1 x20 x21 x22)) (refCand x0 x2 x8 x9 x10 x11))

/-- The new cell state. -/
def refCm (x0 : (⟨S8192x512, .f32⟩ : BufTy).Contents (Elt Ideal)) (x1 : (⟨S8192x1, .f32⟩ : BufTy).Contents (Elt Ideal)) (x2 : (⟨S8192x512, .f32⟩ : BufTy).Contents (Elt Ideal)) (x3 : (⟨S8192x512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x23 : (⟨S512x512, .f32⟩ : BufTy).Contents (Elt Ideal)) (x24 : (⟨S512, .f32⟩ : BufTy).Contents (Elt Ideal)) (x25 : (⟨S512x1, .f32⟩ : BufTy).Contents (Elt Ideal)) : (⟨S8192x512, .f32⟩ : BufTy).Contents (Elt Ideal) :=
  addf (F := Ideal) (φ := .f32) (mulf (F := Ideal) (φ := .f32) (subf (F := Ideal) (φ := .f32) hostOne (refIm x0 x2 x4 x5 x6 x7)) x3)
    (mulf (F := Ideal) (φ := .f32) (mulf (F := Ideal) (φ := .f32) (refIm x0 x2 x4 x5 x6 x7) (refTm x0 x1 x23 x24 x25)) (refCand x0 x2 x8 x9 x10 x11))

/-- The new hidden state. -/
def refHm (x0 : (⟨S8192x512, .f32⟩ : BufTy).Contents (Elt Ideal)) (x1 : (⟨S8192x1, .f32⟩ : BufTy).Contents (Elt Ideal)) (x2 : (⟨S8192x512, .f32⟩ : BufTy).Contents (Elt Ideal)) (x3 : (⟨S8192x512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S512x512, .f32⟩ : BufTy).Contents (Elt Ideal)) (x13 : (⟨S512, .f32⟩ : BufTy).Contents (Elt Ideal)) (x14 : (⟨S512x512, .f32⟩ : BufTy).Contents (Elt Ideal)) (x15 : (⟨S512, .f32⟩ : BufTy).Contents (Elt Ideal)) (x16 : (⟨S512x1, .f32⟩ : BufTy).Contents (Elt Ideal)) (x17 : (⟨S512, .f32⟩ : BufTy).Contents (Elt Ideal)) (x18 : (⟨S512x512, .f32⟩ : BufTy).Contents (Elt Ideal)) (x19 : (⟨S512, .f32⟩ : BufTy).Contents (Elt Ideal)) (x20 : (⟨S512x512, .f32⟩ : BufTy).Contents (Elt Ideal)) (x21 : (⟨S512, .f32⟩ : BufTy).Contents (Elt Ideal)) (x22 : (⟨S512x1, .f32⟩ : BufTy).Contents (Elt Ideal)) : (⟨S8192x512, .f32⟩ : BufTy).Contents (Elt Ideal) :=
  mulf (F := Ideal) (φ := .f32) (hostSg (addf (F := Ideal) (φ := .f32) (addf (F := Ideal) (φ := .f32) (addf (F := Ideal) (φ := .f32) (val_main_v4 (F := Ideal) x0 x12 x13)
          (addf (F := Ideal) (φ := .f32) (val_main_v6 (F := Ideal) x1 x16) (val_main_v3 (F := Ideal) x17)))
        (val_main_v4 (F := Ideal) x2 x14 x15))
      (val_main_v4 (F := Ideal) (refCmt x0 x1 x2 x3 x4 x5 x6 x7 x8 x9 x10 x11 x20 x21 x22) x18 x19)))
    (Host.tanh (F := Ideal) (φ := .f32) (refCmt x0 x1 x2 x3 x4 x5 x6 x7 x8 x9 x10 x11 x20 x21 x22))

/-- The reference's first result is that regrouping: the same operations in the same order. -/
theorem v111_regroup (x0 : (⟨S8192x512, .f32⟩ : BufTy).Contents (Elt Ideal)) (x1 : (⟨S8192x1, .f32⟩ : BufTy).Contents (Elt Ideal)) (x2 : (⟨S8192x512, .f32⟩ : BufTy).Contents (Elt Ideal)) (x3 : (⟨S8192x512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S512x512, .f32⟩ : BufTy).Contents (Elt Ideal)) (x13 : (⟨S512, .f32⟩ : BufTy).Contents (Elt Ideal)) (x14 : (⟨S512x512, .f32⟩ : BufTy).Contents (Elt Ideal)) (x15 : (⟨S512, .f32⟩ : BufTy).Contents (Elt Ideal)) (x16 : (⟨S512x1, .f32⟩ : BufTy).Contents (Elt Ideal)) (x17 : (⟨S512, .f32⟩ : BufTy).Contents (Elt Ideal)) (x18 : (⟨S512x512, .f32⟩ : BufTy).Contents (Elt Ideal)) (x19 : (⟨S512, .f32⟩ : BufTy).Contents (Elt Ideal)) (x20 : (⟨S512x512, .f32⟩ : BufTy).Contents (Elt Ideal)) (x21 : (⟨S512, .f32⟩ : BufTy).Contents (Elt Ideal)) (x22 : (⟨S512x1, .f32⟩ : BufTy).Contents (Elt Ideal)) :
    val_main_v111 (F := Ideal) x0 x1 x2 x3 x4 x5 x6 x7 x8 x9 x10 x11 x12 x13 x14 x15 x16 x17 x18 x19 x20 x21 x22 = refHm x0 x1 x2 x3 x4 x5 x6 x7 x8 x9 x10 x11 x12 x13 x14 x15 x16 x17 x18 x19 x20 x21 x22 := rfl

/-- So is its second result. -/
theorem v80_regroup (x0 : (⟨S8192x512, .f32⟩ : BufTy).Contents (Elt Ideal)) (x1 : (⟨S8192x1, .f32⟩ : BufTy).Contents (Elt Ideal)) (x2 : (⟨S8192x512, .f32⟩ : BufTy).Contents (Elt Ideal)) (x3 : (⟨S8192x512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x23 : (⟨S512x512, .f32⟩ : BufTy).Contents (Elt Ideal)) (x24 : (⟨S512, .f32⟩ : BufTy).Contents (Elt Ideal)) (x25 : (⟨S512x1, .f32⟩ : BufTy).Contents (Elt Ideal)) :
    val_main_v80 (F := Ideal) x0 x1 x2 x3 x4 x5 x6 x7 x8 x9 x10 x11 x23 x24 x25 = refCm x0 x1 x2 x3 x4 x5 x6 x7 x8 x9 x10 x11 x23 x24 x25 := rfl

/-! ## The gates at an entry -/

theorem refTm_at (x0 : (⟨S8192x512, .f32⟩ : BufTy).Contents (Elt Ideal)) (x1 : (⟨S8192x1, .f32⟩ : BufTy).Contents (Elt Ideal)) (W : (⟨S512x512, .f32⟩ : BufTy).Contents (Elt Ideal)) (b : (⟨S512, .f32⟩ : BufTy).Contents (Elt Ideal)) (wt : (⟨S512x1, .f32⟩ : BufTy).Contents (Elt Ideal)) (r : Fin 8192) (h : Fin 512) :
    refTm x0 x1 W b wt (ix2 r h)
      = sg (lin (fun k => x0 (ix2 r k)) (fun h k => W (ix2 h k)) (fun h => b (ix1 h)) h
          + sg (x1 (ix2 r (0 : Fin 1)) * wt (ix2 h (0 : Fin 1)))) := by
  unfold refTm
  rw [hostSg_apply, addf_apply, lin_at, hostSg_apply, dt_at]

theorem refIm_at (x0 x2 : (⟨S8192x512, .f32⟩ : BufTy).Contents (Elt Ideal)) (Wi : (⟨S512x512, .f32⟩ : BufTy).Contents (Elt Ideal)) (bi : (⟨S512, .f32⟩ : BufTy).Contents (Elt Ideal)) (Wh : (⟨S512x512, .f32⟩ : BufTy).Contents (Elt Ideal)) (bh : (⟨S512, .f32⟩ : BufTy).Contents (Elt Ideal)) (r : Fin 8192) (h : Fin 512) :
    refIm x0 x2 Wi bi Wh bh (ix2 r h)
      = sg (lin (fun k => x0 (ix2 r k)) (fun h k => Wi (ix2 h k)) (fun h => bi (ix1 h)) h
          + lin (fun k => x2 (ix2 r k)) (fun h k => Wh (ix2 h k)) (fun h => bh (ix1 h)) h) := by
  unfold refIm
  rw [hostSg_apply, addf_apply, lin_at, lin_at]

theorem refCand_at (x0 x2 : (⟨S8192x512, .f32⟩ : BufTy).Contents (Elt Ideal)) (Wi : (⟨S512x512, .f32⟩ : BufTy).Contents (Elt Ideal)) (bi : (⟨S512, .f32⟩ : BufTy).Contents (Elt Ideal)) (Wh : (⟨S512x512, .f32⟩ : BufTy).Contents (Elt Ideal)) (bh : (⟨S512, .f32⟩ : BufTy).Contents (Elt Ideal)) (r : Fin 8192) (h : Fin 512) :
    refCand x0 x2 Wi bi Wh bh (ix2 r h)
      = Ideal.tanh (lin (fun k => x0 (ix2 r k)) (fun h k => Wi (ix2 h k)) (fun h => bi (ix1 h)) h
          + lin (fun k => x2 (ix2 r k)) (fun h k => Wh (ix2 h k)) (fun h => bh (ix1 h)) h) := by
  unfold refCand
  rw [hostTanh_apply, addf_apply, lin_at, lin_at]

/-- The reference's intermediate cell state at (r, k) is the cell's `cmt` of row r. -/
theorem refCmt_at (x0 : (⟨S8192x512, .f32⟩ : BufTy).Contents (Elt Ideal)) (x1 : (⟨S8192x1, .f32⟩ : BufTy).Contents (Elt Ideal)) (x2 : (⟨S8192x512, .f32⟩ : BufTy).Contents (Elt Ideal)) (x3 : (⟨S8192x512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S512x512, .f32⟩ : BufTy).Contents (Elt Ideal)) (x13 : (⟨S512, .f32⟩ : BufTy).Contents (Elt Ideal)) (x14 : (⟨S512x512, .f32⟩ : BufTy).Contents (Elt Ideal)) (x15 : (⟨S512, .f32⟩ : BufTy).Contents (Elt Ideal)) (x16 : (⟨S512x1, .f32⟩ : BufTy).Contents (Elt Ideal)) (x17 : (⟨S512, .f32⟩ : BufTy).Contents (Elt Ideal)) (x18 : (⟨S512x512, .f32⟩ : BufTy).Contents (Elt Ideal)) (x19 : (⟨S512, .f32⟩ : BufTy).Contents (Elt Ideal)) (x20 : (⟨S512x512, .f32⟩ : BufTy).Contents (Elt Ideal)) (x21 : (⟨S512, .f32⟩ : BufTy).Contents (Elt Ideal)) (x22 : (⟨S512x1, .f32⟩ : BufTy).Contents (Elt Ideal)) (x23 : (⟨S512x512, .f32⟩ : BufTy).Contents (Elt Ideal)) (x24 : (⟨S512, .f32⟩ : BufTy).Contents (Elt Ideal)) (x25 : (⟨S512x1, .f32⟩ : BufTy).Contents (Elt Ideal)) (r : Fin 8192) (k : Fin 512) :
    refCmt x0 x1 x2 x3 x4 x5 x6 x7 x8 x9 x10 x11 x20 x21 x22 (ix2 r k) = cmt (argWeights x4 x5 x6 x7 x8 x9 x10 x11 x12 x13 x14 x15 x16 x17 x18 x19 x20 x21 x22 x23 x24 x25) (argRow x0 x1 x2 x3 r) k := by
  unfold refCmt
  simp only [addf_apply, mulf_apply, subf_apply, hostOne_apply, refIm_at, refTm_at, refCand_at]
  rfl

/-- The reference's second result at (r, h) is the cell's `cmNew` of row r. -/
theorem refCm_at (x0 : (⟨S8192x512, .f32⟩ : BufTy).Contents (Elt Ideal)) (x1 : (⟨S8192x1, .f32⟩ : BufTy).Contents (Elt Ideal)) (x2 : (⟨S8192x512, .f32⟩ : BufTy).Contents (Elt Ideal)) (x3 : (⟨S8192x512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S512x512, .f32⟩ : BufTy).Contents (Elt Ideal)) (x13 : (⟨S512, .f32⟩ : BufTy).Contents (Elt Ideal)) (x14 : (⟨S512x512, .f32⟩ : BufTy).Contents (Elt Ideal)) (x15 : (⟨S512, .f32⟩ : BufTy).Contents (Elt Ideal)) (x16 : (⟨S512x1, .f32⟩ : BufTy).Contents (Elt Ideal)) (x17 : (⟨S512, .f32⟩ : BufTy).Contents (Elt Ideal)) (x18 : (⟨S512x512, .f32⟩ : BufTy).Contents (Elt Ideal)) (x19 : (⟨S512, .f32⟩ : BufTy).Contents (Elt Ideal)) (x20 : (⟨S512x512, .f32⟩ : BufTy).Contents (Elt Ideal)) (x21 : (⟨S512, .f32⟩ : BufTy).Contents (Elt Ideal)) (x22 : (⟨S512x1, .f32⟩ : BufTy).Contents (Elt Ideal)) (x23 : (⟨S512x512, .f32⟩ : BufTy).Contents (Elt Ideal)) (x24 : (⟨S512, .f32⟩ : BufTy).Contents (Elt Ideal)) (x25 : (⟨S512x1, .f32⟩ : BufTy).Contents (Elt Ideal)) (r : Fin 8192) (h : Fin 512) :
    refCm x0 x1 x2 x3 x4 x5 x6 x7 x8 x9 x10 x11 x23 x24 x25 (ix2 r h) = cmNew (argWeights x4 x5 x6 x7 x8 x9 x10 x11 x12 x13 x14 x15 x16 x17 x18 x19 x20 x21 x22 x23 x24 x25) (argRow x0 x1 x2 x3 r) h := by
  unfold refCm
  simp only [addf_apply, mulf_apply, subf_apply, hostOne_apply, refIm_at, refTm_at, refCand_at]
  rfl

/-- The reference's first result at (r, h) is the cell's `hmNew` of row r. -/
theorem refHm_at (x0 : (⟨S8192x512, .f32⟩ : BufTy).Contents (Elt Ideal)) (x1 : (⟨S8192x1, .f32⟩ : BufTy).Contents (Elt Ideal)) (x2 : (⟨S8192x512, .f32⟩ : BufTy).Contents (Elt Ideal)) (x3 : (⟨S8192x512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S512x512, .f32⟩ : BufTy).Contents (Elt Ideal)) (x13 : (⟨S512, .f32⟩ : BufTy).Contents (Elt Ideal)) (x14 : (⟨S512x512, .f32⟩ : BufTy).Contents (Elt Ideal)) (x15 : (⟨S512, .f32⟩ : BufTy).Contents (Elt Ideal)) (x16 : (⟨S512x1, .f32⟩ : BufTy).Contents (Elt Ideal)) (x17 : (⟨S512, .f32⟩ : BufTy).Contents (Elt Ideal)) (x18 : (⟨S512x512, .f32⟩ : BufTy).Contents (Elt Ideal)) (x19 : (⟨S512, .f32⟩ : BufTy).Contents (Elt Ideal)) (x20 : (⟨S512x512, .f32⟩ : BufTy).Contents (Elt Ideal)) (x21 : (⟨S512, .f32⟩ : BufTy).Contents (Elt Ideal)) (x22 : (⟨S512x1, .f32⟩ : BufTy).Contents (Elt Ideal)) (x23 : (⟨S512x512, .f32⟩ : BufTy).Contents (Elt Ideal)) (x24 : (⟨S512, .f32⟩ : BufTy).Contents (Elt Ideal)) (x25 : (⟨S512x1, .f32⟩ : BufTy).Contents (Elt Ideal)) (r : Fin 8192) (h : Fin 512) :
    refHm x0 x1 x2 x3 x4 x5 x6 x7 x8 x9 x10 x11 x12 x13 x14 x15 x16 x17 x18 x19 x20 x21 x22 (ix2 r h) = hmNew (argWeights x4 x5 x6 x7 x8 x9 x10 x11 x12 x13 x14 x15 x16 x17 x18 x19 x20 x21 x22 x23 x24 x25) (argRow x0 x1 x2 x3 r) h := by
  unfold refHm
  simp only [mulf_apply, hostSg_apply, addf_apply, lin_at, dt_at, bias_at, hostTanh_apply]
  simp only [refCmt_at x0 x1 x2 x3 x4 x5 x6 x7 x8 x9 x10 x11 x12 x13 x14 x15 x16 x17 x18 x19 x20 x21 x22 x23 x24 x25]
  rfl

/-! ## The two results as whole arrays -/

theorem v111_eq_hmArr (x0 : (⟨S8192x512, .f32⟩ : BufTy).Contents (Elt Ideal)) (x1 : (⟨S8192x1, .f32⟩ : BufTy).Contents (Elt Ideal)) (x2 : (⟨S8192x512, .f32⟩ : BufTy).Contents (Elt Ideal)) (x3 : (⟨S8192x512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S512x512, .f32⟩ : BufTy).Contents (Elt Ideal)) (x13 : (⟨S512, .f32⟩ : BufTy).Contents (Elt Ideal)) (x14 : (⟨S512x512, .f32⟩ : BufTy).Contents (Elt Ideal)) (x15 : (⟨S512, .f32⟩ : BufTy).Contents (Elt Ideal)) (x16 : (⟨S512x1, .f32⟩ : BufTy).Contents (Elt Ideal)) (x17 : (⟨S512, .f32⟩ : BufTy).Contents (Elt Ideal)) (x18 : (⟨S512x512, .f32⟩ : BufTy).Contents (Elt Ideal)) (x19 : (⟨S512, .f32⟩ : BufTy).Contents (Elt Ideal)) (x20 : (⟨S512x512, .f32⟩ : BufTy).Contents (Elt Ideal)) (x21 : (⟨S512, .f32⟩ : BufTy).Contents (Elt Ideal)) (x22 : (⟨S512x1, .f32⟩ : BufTy).Contents (Elt Ideal)) (x23 : (⟨S512x512, .f32⟩ : BufTy).Contents (Elt Ideal)) (x24 : (⟨S512, .f32⟩ : BufTy).Contents (Elt Ideal)) (x25 : (⟨S512x1, .f32⟩ : BufTy).Contents (Elt Ideal)) :
    val_main_v111 (F := Ideal) x0 x1 x2 x3 x4 x5 x6 x7 x8 x9 x10 x11 x12 x13 x14 x15 x16 x17 x18 x19 x20 x21 x22 = hmArr x0 x1 x2 x3 x4 x5 x6 x7 x8 x9 x10 x11 x12 x13 x14 x15 x16 x17 x18 x19 x20 x21 x22 x23 x24 x25 := by
  rw [v111_regroup]
  funext i
  obtain ⟨r, h, rfl⟩ : ∃ (r : Fin 8192) (h : Fin 512), i = ix2 r h := ⟨i 0, i 1, eq_ix2 i⟩
  exact refHm_at x0 x1 x2 x3 x4 x5 x6 x7 x8 x9 x10 x11 x12 x13 x14 x15 x16 x17 x18 x19 x20 x21 x22 x23 x24 x25 r h

theorem v80_eq_cmArr (x0 : (⟨S8192x512, .f32⟩ : BufTy).Contents (Elt Ideal)) (x1 : (⟨S8192x1, .f32⟩ : BufTy).Contents (Elt Ideal)) (x2 : (⟨S8192x512, .f32⟩ : BufTy).Contents (Elt Ideal)) (x3 : (⟨S8192x512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S512x512, .f32⟩ : BufTy).Contents (Elt Ideal)) (x13 : (⟨S512, .f32⟩ : BufTy).Contents (Elt Ideal)) (x14 : (⟨S512x512, .f32⟩ : BufTy).Contents (Elt Ideal)) (x15 : (⟨S512, .f32⟩ : BufTy).Contents (Elt Ideal)) (x16 : (⟨S512x1, .f32⟩ : BufTy).Contents (Elt Ideal)) (x17 : (⟨S512, .f32⟩ : BufTy).Contents (Elt Ideal)) (x18 : (⟨S512x512, .f32⟩ : BufTy).Contents (Elt Ideal)) (x19 : (⟨S512, .f32⟩ : BufTy).Contents (Elt Ideal)) (x20 : (⟨S512x512, .f32⟩ : BufTy).Contents (Elt Ideal)) (x21 : (⟨S512, .f32⟩ : BufTy).Contents (Elt Ideal)) (x22 : (⟨S512x1, .f32⟩ : BufTy).Contents (Elt Ideal)) (x23 : (⟨S512x512, .f32⟩ : BufTy).Contents (Elt Ideal)) (x24 : (⟨S512, .f32⟩ : BufTy).Contents (Elt Ideal)) (x25 : (⟨S512x1, .f32⟩ : BufTy).Contents (Elt Ideal)) :
    val_main_v80 (F := Ideal) x0 x1 x2 x3 x4 x5 x6 x7 x8 x9 x10 x11 x23 x24 x25 = cmArr x0 x1 x2 x3 x4 x5 x6 x7 x8 x9 x10 x11 x12 x13 x14 x15 x16 x17 x18 x19 x20 x21 x22 x23 x24 x25 := by
  rw [v80_regroup]
  funext i
  obtain ⟨r, h, rfl⟩ : ∃ (r : Fin 8192) (h : Fin 512), i = ix2 r h := ⟨i 0, i 1, eq_ix2 i⟩
  exact refCm_at x0 x1 x2 x3 x4 x5 x6 x7 x8 x9 x10 x11 x12 x13 x14 x15 x16 x17 x18 x19 x20 x21 x22 x23 x24 x25 r h

end Cert.ReferenceIdeal.CellValue

end
-- ==== Proof.lean ====
/-
  A time-aware LSTM cell over a batch of 8192 rows and 512 features: the kernel against its plain reference.

  Both programs compute, for every batch row, the cell written once in Proof/Spec.lean: two time gates, the input gate,
  the candidate, the intermediate and the new cell state, the output gate (which reads the intermediate cell state
  through one more matrix product) and the new hidden state. The kernel walks the batch in sixteen blocks of 512 rows
  with every weight resident, feeds its matrix products in bf16 and writes the three time terms as broadcast products;
  the reference uses host matrix products against transposed weights, contractions of length one for the time terms,
  and spells each sigmoid out. At the extended reals a change of float format is the identity, a product into a zero
  accumulator is the plain sum, a contraction of length one is its single term, and 1 / (1 + exp (-x)) with 1 written as
  its f32 word is the sigmoid; every sum and product is grouped alike on the two sides, so the two programs end with
  the same arrays: `hmArr` and `cmArr` of the arguments (Proof/KernelValue.lean for the kernel, Proof/RefValue.lean
  for the reference). No finiteness of the inputs is used.

  The three frames: the two kernel programs' are the frame certificates of Proof/KernelFrameP.lean and
  Proof/KernelIdealFrameP.lean; the reference's is its run with the results dropped. The ideal pass rewrote nothing, so
  `preserves` is trivial.
-/
import proofs.«172006_j1331439862441_1_alg».proof.Defs
import proofs.«172006_j1331439862441_1_alg».proof.Proof.Gen.Kernel
import proofs.«172006_j1331439862441_1_alg».proof.Proof.Gen.KernelIdeal
import proofs.«172006_j1331439862441_1_alg».proof.Proof.Gen.ReferenceIdeal
import proofs.«172006_j1331439862441_1_alg».proof.Proof.Gen.Pre_finite_inputs
import proofs.«172006_j1331439862441_1_alg».proof.Proof.KernelFrameP
import proofs.«172006_j1331439862441_1_alg».proof.Proof.KernelIdealFrameP
import proofs.«172006_j1331439862441_1_alg».proof.Proof.KernelValue
import proofs.«172006_j1331439862441_1_alg».proof.Proof.RefValue
import Idealize.ShloMosaic.Adequacy
import Idealize.ShloMosaic.Init

noncomputable section

namespace Cert.Proof

open Idealize.ShloMosaic Idealize.SL.Sem Cert.TimeLstm

/-- The kernel as printed runs and leaves its arguments unchanged. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- The reference runs and leaves its arguments unchanged: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass's ledger is empty. -/
theorem preserves : Cert.preserves_Kernel_KernelIdeal := trivial

/-- From memories that agree on the twenty-six arguments both programs end with the new hidden state at `hmArr` and
    the new cell state at `cmArr` of those arguments: the kernel by its run, the reference by its run read stage by
    stage, and the two memories' arguments are equal one by one. -/
theorem algebraic : Cert.algebraic_KernelIdeal_ReferenceIdeal := by
  intro m ρ m' ρ' _ hagree
  refine ⟨_, _, Cert.KernelIdeal.CellValue.run m ρ, ?_⟩
  refine (θ_run Cert.ReferenceIdeal.defs _ _).mono (fun _ h c => ⟨?_, ?_, (h c).2.2⟩)
    (Cert.ReferenceIdeal.Value.run (F := Ideal) m' ρ')
  · obtain ⟨g0, g1, g2, g3, g4, g5, g6, g7, g8, g9, g10, g11, g12, g13, g14, g15, g16, g17, g18, g19, g20, g21, g22, g23, g24, g25⟩ := hagree c
    refine ((h c).1.trans (Cert.ReferenceIdeal.Read.val_main_v111_eq m' c)).trans ?_
    refine (Cert.ReferenceIdeal.CellValue.v111_eq_hmArr (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25))).trans ?_
    exact congr (congr (congr (congr (congr (congr (congr (congr (congr (congr (congr (congr (congr (congr (congr (congr (congr (congr (congr (congr (congr (congr (congr (congr (congr (congrArg hmArr g0) g1) g2) g3) g4) g5) g6) g7) g8) g9) g10) g11) g12) g13) g14) g15) g16) g17) g18) g19) g20) g21) g22) g23) g24) g25
  · obtain ⟨g0, g1, g2, g3, g4, g5, g6, g7, g8, g9, g10, g11, g12, g13, g14, g15, g16, g17, g18, g19, g20, g21, g22, g23, g24, g25⟩ := hagree c
    refine ((h c).2.1.trans (Cert.ReferenceIdeal.Read.val_main_v80_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)))).trans ?_
    refine (Cert.ReferenceIdeal.CellValue.v80_eq_cmArr (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25))).trans ?_
    exact congr (congr (congr (congr (congr (congr (congr (congr (congr (congr (congr (congr (congr (congr (congr (congr (congr (congr (congr (congr (congr (congr (congr (congr (congr (congrArg cmArr g0) g1) g2) g3) g4) g5) g6) g7) g8) g9) g10) g11) g12) g13) g14) g15) g16) g17) g18) g19) g20) g21) g22) g23) g24) g25

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
